-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x512 .f32) (main_arg1 : IVec S1024 32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 100000#32
  let main_v13 : IVec S1024 32 := broadcastInDim S1024 ![] bcast_S_S1024 main_c_4
  let main_v14 : IVec S1024 1 := cmpi .slt main_arg1 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S2x1024x1 : Shape := ⟨3, ![2, 1024, 1]⟩
abbrev S2000x512 : Shape := ⟨2, ![2000, 512]⟩
abbrev S1x1024x1 : Shape := ⟨3, ![1, 1024, 1]⟩
abbrev S2000 : Shape := ⟨1, ![2000]⟩
abbrev S2000x1 : Shape := ⟨2, ![2000, 1]⟩
abbrev S1024x2000 : Shape := ⟨2, ![1024, 2000]⟩

abbrev nBuf : Space → Nat
  | .hbm => 82
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x512, .bf16⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1, .i32⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S1x1, .i32⟩
  | .hbm, ⟨27, _⟩ => ⟨S1024x1, .i32⟩
  | .hbm, ⟨28, _⟩ => ⟨S1024x1, .i1⟩
  | .hbm, ⟨29, _⟩ => ⟨S1024x1, .i1⟩
  | .hbm, ⟨30, _⟩ => ⟨S_, .i1⟩
  | .hbm, ⟨31, _⟩ => ⟨S1024, .i1⟩
  | .hbm, ⟨32, _⟩ => ⟨S1024x512, .f32⟩
  | .hbm, ⟨33, _⟩ => ⟨S1024x512, .i1⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x512, .f32⟩
  | .hbm, ⟨46, _⟩ => ⟨S1024x512, .f32⟩
  | .hbm, ⟨47, _⟩ => ⟨S1024x512, .bf16⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024x1, .f32⟩
  | .hbm, ⟨68, _⟩ => ⟨S2x1024x1, .f32⟩
  | .hbm, ⟨69, _⟩ => ⟨S1x1024x1, .f32⟩
  | .hbm, ⟨70, _⟩ => ⟨S1024, .f32⟩
  | .hbm, ⟨71, _⟩ => ⟨S1x1024x1, .f32⟩
  | .hbm, ⟨72, _⟩ => ⟨S1024, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S1024x512, .bf16⟩
  | .local _ .vmem, ⟨1, _⟩ => ⟨S1024x1, .f32⟩
  | .local _ .vmem, ⟨2, _⟩ => ⟨S2000x512, .f32⟩
  | .local _ .vmem, ⟨3, _⟩ => ⟨S2000x512, .f32⟩
  | .local _ .vmem, ⟨4, _⟩ => ⟨S1x1024x1, .f32⟩
  | .local _ .vmem, ⟨5, _⟩ => ⟨S1x1024x1, .f32⟩
  | .local _ .vmem, ⟨6, _⟩ => ⟨S1024x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_cst_4 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v23 : Ref sig .tc := ⟨.hbm, 60, rfl⟩
abbrev main_cst_6 : Ref sig .tc := ⟨.hbm, 61, rfl⟩
abbrev main_v24 : Ref sig .tc := ⟨.hbm, 62, rfl⟩
abbrev main_v25 : Ref sig .tc := ⟨.hbm, 63, rfl⟩
abbrev main_cst_7 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_9 : Ref sig .tc := ⟨.hbm, 78, rfl⟩
abbrev main_v38 : Ref sig .tc := ⟨.hbm, 79, rfl⟩
abbrev main_cst_10 : Ref sig .tc := ⟨.hbm, 80, rfl⟩
abbrev main_v39 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v37 : BitVec 1 := Scalar.cmpi .eq arg1 c24_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  bcast_S_S1024 : S_.BroadcastsInDim S1024 (![] : Fin 0 → Fin S1024.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x512_0 : S1024.BroadcastsInDim S1024x512 (![0] : Fin 1 → Fin S1024x512.rank)
  bcast_S_S1024x512 : S_.BroadcastsInDim S1024x512 (![] : Fin 0 → Fin S1024x512.rank)
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1024x1_S1024x2000 : S1024x1.Broadcasts S1024x2000
  reduces_S1024x2000_S1024 : S1024x2000.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  shapeCasts_S1x1024x1_S1024 : S1x1024x1.ShapeCasts S1024
  slices_S2x1024x1_S1x1024x1_1_0_0 : S2x1024x1.Slices ![1, 0, 0] S1x1024x1
  reducesTo_S1024_S_d0 : S1024.ReducesTo [0] S_
  gather_S100000x512_S1024x1_S1024x512_1_0_n_n_0_1_1512_wf : GatherDims.WF S100000x512 S1024x1 S1024x512 [1] [0] [] [0] [] 1 ![1, 512]
  dot_S1024x512_S2000x512_S1024x2000_1_1_0_0_n_n_wf : DotDims.WF S1024x512 S2000x512 S1024x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .f32 = 32 ∨ (Rect.block (s := S1024x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S100000x512.size a
  hwx0_2 : ∀ i : grid0.Coords, EltTy.bits .f32 = 32 ∨ (Rect.block (s := S100000x512) S2000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def dot_S1024x512_S2000x512_S1024x2000_1_1_0_0_n_n : DotDims S1024x512 S2000x512 S1024x2000 where
  lhsContracting := [1]
  rhsContracting := [1]
  lhsNonContracting := [0]
  rhsNonContracting := [0]
  lhsBatch := []
  rhsBatch := []
  wf := dot_S1024x512_S2000x512_S1024x2000_1_1_0_0_n_n_wf

abbrev win0_0 : Pipeline.Window sig grid0 :=
  Pipeline.Window.ofSpec (Memref.whole main_v8) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩
abbrev S1x100000 : Shape := ⟨2, ![1, 100000]⟩

abbrev nBuf : Space → Nat
  | .hbm => 84
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S1024x100000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S_, .f32⟩
  | .hbm, ⟨30, _⟩ => ⟨S1024x100000, .f32⟩
  | .hbm, ⟨31, _⟩ => ⟨S1024x100000, .f32⟩
  | .hbm, ⟨32, _⟩ => ⟨S_, .f32⟩
  | .hbm, ⟨33, _⟩ => ⟨S1024x100000, .f32⟩
  | .hbm, ⟨34, _⟩ => ⟨S1024x100000, .f32⟩
  | .hbm, ⟨35, _⟩ => ⟨S1024x1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S_, .i32⟩
  | .hbm, ⟨40, _⟩ => ⟨S1024x1, .i32⟩
  | .hbm, ⟨41, _⟩ => ⟨S1024x1, .i32⟩
  | .hbm, ⟨42, _⟩ => ⟨S1024x1, .i32⟩
  | .hbm, ⟨43, _⟩ => ⟨S1024x1x1, .i32⟩
  | .hbm, ⟨44, _⟩ => ⟨S1, .i32⟩
  | .hbm, ⟨45, _⟩ => ⟨S_, .i32⟩
  | .hbm, ⟨46, _⟩ => ⟨S1024x1x1, .i32⟩
  | .hbm, ⟨47, _⟩ => ⟨S1024x1x1, .i1⟩
  | .hbm, ⟨48, _⟩ => ⟨S1x1x1, .i32⟩
  | .hbm, ⟨49, _⟩ => ⟨S1024x1x1, .i32⟩
  | .hbm, ⟨50, _⟩ => ⟨S1024x1x1, .i1⟩
  | .hbm, ⟨51, _⟩ => ⟨S1024x1x1, .i1⟩
  | .hbm, ⟨52, _⟩ => ⟨S_, .i1⟩
  | .hbm, ⟨53, _⟩ => ⟨S1024x1, .i1⟩
  | .hbm, ⟨54, _⟩ => ⟨S1024x1, .f32⟩
  | .hbm, ⟨55, _⟩ => ⟨S_, .f32⟩
  | .hbm, ⟨56, _⟩ => ⟨S1024x1, .f32⟩
  | .hbm, ⟨57, _⟩ => ⟨S1024x1, .f32⟩
  | .hbm, ⟨58, _⟩ => ⟨S_, .f32⟩
  | .hbm, ⟨59, _⟩ => ⟨S1024x100000, .f32⟩
  | .hbm, ⟨60, _⟩ => ⟨S1024x100000, .f32⟩
  | .hbm, ⟨61, _⟩ => ⟨S1024x100000, .f32⟩
  | .hbm, ⟨62, _⟩ => ⟨S1024x100000, .f32⟩
  | .hbm, ⟨63, _⟩ => ⟨S100000, .i32⟩
  | .hbm, ⟨64, _⟩ => ⟨S1x100000, .i32⟩
  | .hbm, ⟨65, _⟩ => ⟨S1024x1, .i32⟩
  | .hbm, ⟨66, _⟩ => ⟨S1024x100000, .i32⟩
  | .hbm, ⟨67, _⟩ => ⟨S1024x100000, .i32⟩
  | .hbm, ⟨68, _⟩ => ⟨S1024x100000, .i1⟩
  | .hbm, ⟨69, _⟩ => ⟨S_, .f32⟩
  | .hbm, ⟨70, _⟩ => ⟨S1024x100000, .f32⟩
  | .hbm, ⟨71, _⟩ => ⟨S1024x100000, .i1⟩
  | .hbm, ⟨72, _⟩ => ⟨S1024x100000, .i1⟩
  | .hbm, ⟨73, _⟩ => ⟨S_, .f32⟩
  | .hbm, ⟨74, _⟩ => ⟨S_, .f32⟩
  | .hbm, ⟨75, _⟩ => ⟨S1024x100000, .f32⟩
  | .hbm, ⟨76, _⟩ => ⟨S1024x100000, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v21 : Ref sig .tc := ⟨.hbm, 57, rfl⟩
abbrev main_cst_6 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_8 : Ref sig .tc := ⟨.hbm, 73, rfl⟩
abbrev main_call2_v0 : Ref sig .tc := ⟨.hbm, 74, rfl⟩
abbrev main_call2_v1 : Ref sig .tc := ⟨.hbm, 75, rfl⟩
abbrev main_v35 : Ref sig .tc := ⟨.hbm, 76, rfl⟩
abbrev main_cst_9 : Ref sig .tc := ⟨.hbm, 77, rfl⟩
abbrev main_v36 : Ref sig .tc := ⟨.hbm, 78, rfl⟩
abbrev main_v37 : Ref sig .tc := ⟨.hbm, 79, rfl⟩
abbrev main_cst_10 : Ref sig .tc := ⟨.hbm, 80, rfl⟩
abbrev main_v38 : Ref sig .tc := ⟨.hbm, 81, rfl⟩
abbrev main_cst_11 : Ref sig .tc := ⟨.hbm, 82, rfl⟩
abbrev main_v39 : Ref sig .tc := ⟨.hbm, 83, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S1024x100000 : S_.BroadcastsInDim S1024x100000 (![] : Fin 0 → Fin S1024x100000.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  bcast_S1024x1_S1024x100000_0_1 : S1024x1.BroadcastsInDim S1024x100000 (![0, 1] : Fin 2 → Fin S1024x100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  reducesTo_S1024_S_d0 : S1024.ReducesTo [0] S_
  dot_S1024x512_S100000x512_S1024x100000_1_1_0_0_n_n_wf : DotDims.WF S1024x512 S100000x512 S1024x100000 [1] [1] [0] [0] [] []
  gather_S1024x100000_S1024x1x1_S1024x1_n_1_0_0_1_2_11_wf : GatherDims.WF S1024x100000 S1024x1x1 S1024x1 [] [1] [0] [1] [0] 2 ![1, 1]

variable [Facts₀]

def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.Spec.lean ====
/-
  The margin loss, row by row, as two closed forms over the extended reals.

  Inputs: an embedding matrix `emb` (1024 rows of 512), a class matrix `w` (100000 rows of 512) and one label
  `g n` per embedding row. Every row is divided by its guarded Euclidean norm. The cosine of embedding row `n`
  and class row `c` is clipped into [lo, hi] and scaled by 30; the margin term of a class is its scaled
  cosine plus 9 minus the label's scaled cosine; a row's loss is the sum of the positive margin terms over
  the classes other than the label.

  `rowRef` is that definition. `rowKer` is the second arrangement: the label's term (which is 9) is kept in
  the sum and 9 is subtracted afterwards; the classes are summed tile by tile (50 tiles of 2000, accumulated in
  two halves of 25 from zero); the norm guard sits under the square root (`rsqrt (max ss epsSq)` with
  `epsSq` the square of the guard `epsW`).
-/
import Idealize.ShloMosaic.PureOps.Ideal

noncomputable section

namespace Margin

open Idealize.ShloMosaic

/-- The norm guard, the f32 word of 1e-12. -/
def epsW : EReal := Ideal.ofBits .f32 0x2B8CBCCC#32
/-- The clip bounds, the f32 words of -1 + 1e-7 and 1 - 1e-7. -/
def loW : EReal := Ideal.ofBits .f32 0xBF7FFFFE#32
def hiW : EReal := Ideal.ofBits .f32 0x3F7FFFFE#32
/-- The scale 30 and the scaled margin 9. -/
def scaleW : EReal := Ideal.ofBits .f32 0x41F00000#32
def nineW : EReal := Ideal.ofBits .f32 0x41100000#32
/-- The square of the norm guard: (2305843 / 2^61)^2. -/
def epsSq : EReal := ((5316911940649 / 5316911983139663491615228241121378304 : ℝ) : EReal)

def clip (x : EReal) : EReal := min hiW (max loW x)

def relu (d : EReal) : EReal := if 0 < d then d else 0

/-- Entry `k` of row `c` divided by the row's guarded norm `max (sqrt (0 + ∑ x²)) epsW`. -/
def normRow {C K : ℕ} (x : Fin C → Fin K → EReal) (c : Fin C) (k : Fin K) : EReal :=
  Ideal.div (x c k) (max (Ideal.sqrt (0 + ∑ k', x c k' * x c k')) epsW)

/-- The same entry times the reciprocal square root of the guarded sum of squares `max (∑ x²) epsSq`. -/
def normRowK {C K : ℕ} (x : Fin C → Fin K → EReal) (c : Fin C) (k : Fin K) : EReal :=
  x c k * Ideal.rsqrt (max (∑ k', x c k' * x c k') epsSq)

variable (emb : Fin 1024 → Fin 512 → EReal) (w : Fin 100000 → Fin 512 → EReal) (g : Fin 1024 → Fin 100000)

/-- The clipped cosine of embedding row `n` and class row `c`, both rows normalised in the first form. -/
def cosRef (n : Fin 1024) (c : Fin 100000) : EReal := clip (∑ k, normRow emb n k * normRow w c k)

/-- The clipped cosine of row `n` of an already normalised matrix `E` and class row `c` normalised in the second form. -/
def cosArr (E : Fin 1024 → Fin 512 → EReal) (n : Fin 1024) (c : Fin 100000) : EReal :=
  clip (∑ k, E n k * normRowK w c k)

/-- The margin term of class `c` in row `n`. -/
def deltaRef (n : Fin 1024) (c : Fin 100000) : EReal :=
  (cosRef emb w n c * scaleW + nineW) - cosRef emb w n (g n) * scaleW

/-- The row's loss: the positive margin terms of the classes other than the label. -/
def rowRef (n : Fin 1024) : EReal :=
  0 + ∑ c, if c ≠ g n ∧ 0 < deltaRef emb w g n c then deltaRef emb w g n c else 0

/-- The per-row offset `9 - 30 · clip (cosine with the label's class row)`. -/
def biasKer (n : Fin 1024) : EReal :=
  nineW - clip (0 + ∑ k, normRow emb n k * normRow w (g n) k) * scaleW

/-- Class `c'` of tile `t`. -/
def col (t : ℕ) (c' : Fin 2000) : Fin 100000 := ⟨(2000 * t + c'.val) % 100000, Nat.mod_lt _ (by norm_num)⟩

/-- The sum of the positive parts over one tile of 2000 classes, for a normalised matrix `E` and offsets `B`. -/
def partArr (E : Fin 1024 → Fin 512 → EReal) (B : Fin 1024 → EReal) (n : Fin 1024) (t : ℕ) : EReal :=
  ∑ c' : Fin 2000, relu (cosArr w E n (col t c') * scaleW + B n)

/-- The accumulator of half `h` after its first `j + 1` tiles, started from zero. -/
def accArr (E : Fin 1024 → Fin 512 → EReal) (B : Fin 1024 → EReal) (n : Fin 1024) (h : ℕ) : ℕ → EReal
  | 0 => 0 + partArr w E B n (25 * h)
  | j + 1 => accArr E B n h j + partArr w E B n (25 * h + (j + 1))

/-- The two halves added, less the label's own term 9. -/
def rowArr (E : Fin 1024 → Fin 512 → EReal) (B : Fin 1024 → EReal) (n : Fin 1024) : EReal :=
  (accArr w E B n 0 24 + accArr w E B n 1 24) - nineW

/-- The second arrangement of the row's loss. -/
def rowKer (n : Fin 1024) : EReal :=
  rowArr w (normRow emb) (biasKer emb w g) n

end Margin

end
-- ==== Proof.SpecNorm.lean ====
/-
  The two normalisations agree on rows of real numbers: x · rsqrt(max(∑x², ε²)) = x / max(sqrt(0 + ∑x²), ε),
  because ε² is exactly the square of the guard ε and the square root is monotone. Also: the literal words'
  values, and that a clipped value and a normalised entry are real numbers.
-/
import proofs.«430320_j77790447665631_3_alg».proof.Proof.Spec
import Mathlib.Analysis.Real.Sqrt
import Mathlib.Data.EReal.Basic
import Mathlib.Order.MinMax
import Mathlib.Algebra.Order.BigOperators.Group.Finset

noncomputable section

namespace Margin

open Idealize.ShloMosaic

/-- The guard is a positive real and `epsSq` is its square. -/
theorem epsW_eq : epsW = ((2305843 / 2305843009213693952 : ℝ) : EReal) := by
  simp [epsW, Ideal.ofBits, Ideal.ieee, -EReal.coe_mul]; norm_num
theorem epsSq_eq : epsSq = (((2305843 / 2305843009213693952 : ℝ) ^ 2 : ℝ) : EReal) := by
  rw [epsSq]; congr 1; norm_num
theorem scaleW_eq : scaleW = ((30 : ℝ) : EReal) := by
  simp [scaleW, Ideal.ofBits, Ideal.ieee, -EReal.coe_mul]; norm_num
theorem nineW_eq : nineW = ((9 : ℝ) : EReal) := by
  simp [nineW, Ideal.ofBits, Ideal.ieee, -EReal.coe_mul]; norm_num
/-- The clip bounds are real numbers (their values are not needed). -/
theorem loW_real : ∃ r : ℝ, loW = (r : EReal) := by
  refine ⟨-(8388607 / 8388608), ?_⟩
  simp [loW, Ideal.ofBits, Ideal.ieee, -EReal.coe_mul]; norm_num
theorem hiW_real : ∃ r : ℝ, hiW = (r : EReal) := by
  refine ⟨8388607 / 8388608, ?_⟩
  simp [hiW, Ideal.ofBits, Ideal.ieee, -EReal.coe_mul]; norm_num

/-- The larger and the smaller of two real numbers, read in the extended reals. -/
private theorem coe_max' (a b : ℝ) : max (a : EReal) (b : EReal) = ((max a b : ℝ) : EReal) :=
  (EReal.coe_strictMono.monotone.map_max).symm
private theorem coe_min' (a b : ℝ) : min (a : EReal) (b : EReal) = ((min a b : ℝ) : EReal) :=
  (EReal.coe_strictMono.monotone.map_min).symm

/-- A clipped value is a real number, whatever was clipped. -/
theorem clip_real (x : EReal) : ∃ r : ℝ, clip x = (r : EReal) := by
  obtain ⟨lo, hlo⟩ := loW_real
  obtain ⟨hi, hhi⟩ := hiW_real
  rw [clip, hlo, hhi]
  induction x using EReal.rec with
  | bot => exact ⟨min hi lo, by rw [max_eq_left bot_le, coe_min']⟩
  | top => exact ⟨hi, by rw [max_eq_right le_top, min_eq_left le_top]⟩
  | coe r => exact ⟨min hi (max lo r), by rw [coe_max', coe_min']⟩

/-- The coercion of the reals into the extended reals goes through a finite sum. -/
private theorem coe_sum' {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- On a row of real numbers the second normalisation is the first. -/
theorem normRowK_eq {C K : ℕ} (x : Fin C → Fin K → EReal) (hx : ∀ c k, ∃ r : ℝ, x c k = (r : EReal)) (c : Fin C) (k : Fin K) :
    normRowK x c k = normRow x c k := by
  choose r hr using hx c
  -- the sum of squares is a nonnegative real
  have hss : (∑ k', x c k' * x c k') = ((∑ k', r k' * r k' : ℝ) : EReal) := by
    rw [← coe_sum']; exact Finset.sum_congr rfl fun k' _ => by rw [hr k', EReal.coe_mul]
  have hnn : 0 ≤ ∑ k', r k' * r k' := Finset.sum_nonneg fun k' _ => mul_self_nonneg _
  set S : ℝ := ∑ k', r k' * r k' with hS
  set e : ℝ := 2305843 / 2305843009213693952 with he
  have hepos : 0 < e := by rw [he]; norm_num
  -- the square root of the guarded sum is the guarded square root
  have hsq : Real.sqrt (max S (e ^ 2)) = max (Real.sqrt S) e := by
    rw [Real.sqrt_monotone.map_max, Real.sqrt_sq hepos.le]
  have hmpos : 0 < max S (e ^ 2) := lt_max_of_lt_right (by positivity)
  have hdpos : 0 < max (Real.sqrt S) e := lt_max_of_lt_right hepos
  rw [normRowK, normRow, hss, epsSq_eq, epsW_eq, zero_add, coe_max', Ideal.sqrt_coe, if_neg (not_lt.mpr hnn),
    coe_max', Ideal.rsqrt_coe, if_neg (not_lt.mpr hmpos.le), if_neg hmpos.ne', Ideal.div_coe hdpos.ne', hsq,
    one_div]

end Margin

end
-- ==== Proof.SpecSum.lean ====
/-
  The two arrangements of a row's loss agree when the matrices hold real numbers: the label's own margin term is
  30·X + (9 − 30·X) = 9, positive, so keeping it in the sum and subtracting 9 afterwards is leaving it out; the 50
  tiles of 2000 classes, accumulated in two halves from zero, enumerate the 100000 classes once each.
-/
import proofs.«430320_j77790447665631_3_alg».proof.Proof.SpecNorm
import Mathlib.Algebra.BigOperators.Fin
import Mathlib.Data.Fintype.BigOperators
import Mathlib.Data.EReal.Operations
import Mathlib.Logic.Equiv.Fin.Basic

noncomputable section

namespace Margin

open Idealize.ShloMosaic

/-- With the class rows real, the cosine against the second normalisation is the cosine of the first. -/
theorem cosArr_normRow (emb : Fin 1024 → Fin 512 → EReal) (w : Fin 100000 → Fin 512 → EReal)
    (hw : ∀ c k, ∃ r : ℝ, w c k = (r : EReal)) (n : Fin 1024) (c : Fin 100000) :
    cosArr w (normRow emb) n c = cosRef emb w n c := by
  unfold cosArr cosRef
  congr 1
  refine Finset.sum_congr rfl fun k _ => ?_
  rw [normRowK_eq w hw]

/-- The offset is 9 − 30 · (the label's clipped cosine). -/
theorem biasKer_eq (emb : Fin 1024 → Fin 512 → EReal) (w : Fin 100000 → Fin 512 → EReal) (g : Fin 1024 → Fin 100000)
    (n : Fin 1024) : biasKer emb w g n = nineW - cosRef emb w n (g n) * scaleW := by
  unfold biasKer cosRef
  rw [zero_add]

/-- 30·X + (9 − 30·Y) = (30·X + 9) − 30·Y for the real numbers X, Y that clipped cosines are. -/
theorem relu_term (emb : Fin 1024 → Fin 512 → EReal) (w : Fin 100000 → Fin 512 → EReal) (g : Fin 1024 → Fin 100000)
    (n : Fin 1024) (c : Fin 100000) :
    relu (cosRef emb w n c * scaleW + (nineW - cosRef emb w n (g n) * scaleW)) = relu (deltaRef emb w g n c) := by
  obtain ⟨a, ha⟩ := clip_real (∑ k, normRow emb n k * normRow w c k)
  obtain ⟨b, hb⟩ := clip_real (∑ k, normRow emb n k * normRow w (g n) k)
  unfold deltaRef cosRef
  rw [ha, hb, scaleW_eq, nineW_eq]
  congr 1
  rw [← EReal.coe_mul, ← EReal.coe_mul, ← EReal.coe_sub, ← EReal.coe_add, ← EReal.coe_add, ← EReal.coe_sub]
  congr 1
  ring

/-- The label's own margin term is (30·X + 9) − 30·X = 9. -/
theorem deltaRef_label (emb : Fin 1024 → Fin 512 → EReal) (w : Fin 100000 → Fin 512 → EReal) (g : Fin 1024 → Fin 100000)
    (n : Fin 1024) : deltaRef emb w g n (g n) = ((9 : ℝ) : EReal) := by
  obtain ⟨b, hb⟩ := clip_real (∑ k, normRow emb n k * normRow w (g n) k)
  unfold deltaRef cosRef
  rw [hb, scaleW_eq, nineW_eq, ← EReal.coe_mul, ← EReal.coe_add, ← EReal.coe_sub]
  congr 1
  ring

theorem relu_nine : relu ((9 : ℝ) : EReal) = ((9 : ℝ) : EReal) := by
  unfold relu
  rw [if_pos]
  exact EReal.coe_pos.mpr (by norm_num)

/-- The accumulator of a half after j + 1 tiles is the sum of those tiles. -/
theorem accArr_eq_sum (w : Fin 100000 → Fin 512 → EReal) (E : Fin 1024 → Fin 512 → EReal) (B : Fin 1024 → EReal)
    (n : Fin 1024) (h : ℕ) (j : ℕ) :
    accArr w E B n h j = ∑ i ∈ Finset.range (j + 1), partArr w E B n (25 * h + i) := by
  induction j with
  | zero => rw [accArr]; simp
  | succ j ih => rw [accArr, ih, Finset.sum_range_succ _ (j + 1)]

/-- The two halves of 25 tiles together are the 50 tiles. -/
theorem halves_eq (w : Fin 100000 → Fin 512 → EReal) (E : Fin 1024 → Fin 512 → EReal) (B : Fin 1024 → EReal)
    (n : Fin 1024) :
    accArr w E B n 0 24 + accArr w E B n 1 24 = ∑ t ∈ Finset.range 50, partArr w E B n t := by
  have h50 : ∑ t ∈ Finset.range 50, partArr w E B n t
      = ∑ t ∈ Finset.range 25, partArr w E B n t + ∑ t ∈ Finset.range 25, partArr w E B n (25 + t) :=
    Finset.sum_range_add (fun t => partArr w E B n t) 25 25
  rw [accArr_eq_sum, accArr_eq_sum, h50]
  simp

/-- The 50 tiles of 2000 classes enumerate the 100000 classes once each: class 2000·t + c' is the pair (t, c'). -/
theorem sum_tiles (F : Fin 100000 → EReal) :
    ∑ t ∈ Finset.range 50, ∑ c' : Fin 2000, F (col t c') = ∑ c : Fin 100000, F c := by
  calc ∑ t ∈ Finset.range 50, ∑ c' : Fin 2000, F (col t c')
      = ∑ t : Fin 50, ∑ c' : Fin 2000, F (col t c') :=
        Finset.sum_range (fun t => ∑ c' : Fin 2000, F (col t c'))
    _ = ∑ p : Fin 50 × Fin 2000, F (col p.1 p.2) :=
        (Fintype.sum_prod_type' (fun (t : Fin 50) (c' : Fin 2000) => F (col t c'))).symm
    _ = ∑ p : Fin 50 × Fin 2000, F ((finProdFinEquiv : Fin 50 × Fin 2000 ≃ Fin 100000) p) := by
        refine Finset.sum_congr rfl fun p _ => ?_
        congr 1
        apply Fin.ext
        show (2000 * p.1.val + p.2.val) % 100000 = p.2.val + 2000 * p.1.val
        have h1 := p.1.isLt
        have h2 := p.2.isLt
        omega
    _ = ∑ c : Fin 100000, F c := Equiv.sum_comp (finProdFinEquiv : Fin 50 × Fin 2000 ≃ Fin 100000) F

/-- The sum of all positive parts is the sum over the classes other than g0, plus the positive part at g0. -/
theorem relu_split (g0 : Fin 100000) (δ : Fin 100000 → EReal) :
    ∑ c, relu (δ c) = (∑ c, if c ≠ g0 ∧ 0 < δ c then δ c else 0) + relu (δ g0) := by
  have hpt : ∀ c, relu (δ c) =
      (if c ≠ g0 ∧ 0 < δ c then δ c else 0) + (if c = g0 then relu (δ c) else 0) := by
    intro c
    by_cases h : c = g0
    · simp [h]
    · simp [h, relu]
  rw [Finset.sum_congr rfl (fun c _ => hpt c), Finset.sum_add_distrib, Finset.sum_ite_eq']
  simp

theorem rowKer_eq_rowRef (emb : Fin 1024 → Fin 512 → EReal) (w : Fin 100000 → Fin 512 → EReal) (g : Fin 1024 → Fin 100000)
    (hemb : ∀ n k, ∃ r : ℝ, emb n k = (r : EReal)) (hw : ∀ c k, ∃ r : ℝ, w c k = (r : EReal)) (n : Fin 1024) :
    rowKer emb w g n = rowRef emb w g n := by
  have hpart : ∀ t, partArr w (normRow emb) (biasKer emb w g) n t
      = ∑ c' : Fin 2000, relu (deltaRef emb w g n (col t c')) := by
    intro t
    unfold partArr
    refine Finset.sum_congr rfl fun c' _ => ?_
    rw [cosArr_normRow emb w hw, biasKer_eq, relu_term]
  unfold rowKer rowArr rowRef
  rw [halves_eq, Finset.sum_congr rfl (fun t _ => hpart t),
    sum_tiles (fun c => relu (deltaRef emb w g n c)), relu_split (g n) (deltaRef emb w g n),
    deltaRef_label, relu_nine, nineW_eq, EReal.add_sub_cancel_right, zero_add]

end Margin

end
-- ==== Proof.Inputs.lean ====
/-
  The two programs' arguments as the matrices and labels of the closed forms, and the loss's last steps
  (log(1 + row), the mean over the 1024 rows) as one function of the vector of rows.
-/
import proofs.«430320_j77790447665631_3_alg».proof.Proof.Spec
import Idealize.ShloMosaic.PureOps
import Idealize.ShloMosaic.Lib.ValueIdx

noncomputable section

namespace Margin

open Idealize.ShloMosaic Idealize.ShloMosaic.ValueIdx

abbrev SEmb : Shape := ⟨2, ![1024, 512]⟩
abbrev SCls : Shape := ⟨2, ![100000, 512]⟩
abbrev SLab : Shape := ⟨1, ![1024]⟩
abbrev SSc : Shape := ⟨0, ![]⟩

/-- The embedding argument as a matrix. -/
def embOf (x0 : SEmb.Idx → EReal) : Fin 1024 → Fin 512 → EReal := fun n k => x0 (ix2 n k)
/-- The class-weight argument as a matrix. -/
def wOf (x2 : SCls.Idx → EReal) : Fin 100000 → Fin 512 → EReal := fun c k => x2 (ix2 c k)
/-- The label argument as class indices (the word's value; reduced mod 100000 so that it is total). -/
def labOf (x1 : SLab.Idx → BitVec 32) : Fin 1024 → Fin 100000 :=
  fun n => ⟨(x1 (ix1 n)).toNat % 100000, Nat.mod_lt _ (by norm_num)⟩

/-- Every label word is a class index. -/
def InRange (x1 : SLab.Idx → BitVec 32) : Prop := ∀ n : Fin 1024, (x1 (ix1 n)).toNat < 100000

/-- Every entry is a real number. -/
def AllReal {s : Shape} (x : s.Idx → EReal) : Prop := ∀ i, ∃ r : ℝ, x i = (r : EReal)

/-- A function of the row as a vector of 1024 entries. -/
def rowVec (f : Fin 1024 → EReal) : FVec Ideal SLab .f32 := fun i => f (i 0)

/-- The mean over the rows of log(1 + row): the last four operations of both programs. -/
def tailVec (hred : SLab.ReducesTo [0] SSc) (h0 : 0 < SSc.numel) (x : FVec Ideal SLab .f32) : FVec Ideal SSc .f32 :=
  Host.divf (Host.reduceAdd (Host.log1p x) (constant (F := Ideal) SSc .f32 0x00000000#32) hred h0)
    (constant (F := Ideal) SSc .f32 0x44800000#32)

end Margin

end
-- ==== Proof.PreRead.lean ====
/-
  The precondition read: every embedding and class entry is a real number, and every label is a class index.
-/
import proofs.«430320_j77790447665631_3_alg».proof.Proof.Inputs
import proofs.«430320_j77790447665631_3_alg».proof.Pre_finite_inputs
import proofs.«430320_j77790447665631_3_alg».proof.Proof.Gen.Pre_finite_inputs
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.Pre_finite_inputs.Hand

open Cert.Pre_finite_inputs

/-- The word 0x7F800000 denotes +∞. -/
private theorem top_bits : Ideal.ofBits .f32 0x7F800000#32 = (⊤ : EReal) := by
  simp [Ideal.ofBits, Ideal.ieee]

/-- An extended real whose absolute value max x (-x) lies strictly below +∞ is a real number. -/
private theorem real_of_abs_lt (x : EReal)
    (h : Ideal.cmp .olt (max x (-x)) (Ideal.ofBits .f32 0x7F800000#32) = 1#1) : ∃ r : ℝ, x = (r : EReal) := by
  rw [top_bits] at h
  simp only [Ideal.cmp, StableHlo.Predicate.ofBool_eq_one_iff, decide_eq_true_eq] at h
  induction x using EReal.rec with
  | bot => simp at h
  | coe r => exact ⟨r, rfl⟩
  | top => simp at h

/-- A 32-bit word that is signed-nonnegative and signed-below 100000 has value below 100000. -/
private theorem toNat_lt_of_signed (w : BitVec 32) (h0 : IntOp.cmpi .sge w 0#32 = 1#1)
    (h1 : IntOp.cmpi .slt w 100000#32 = 1#1) : w.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hw : 2 * w.toNat < 2 ^ 32 := BitVec.toInt_pos_iff.1 h0
  rw [BitVec.toInt_eq_toNat_of_lt hw] at h1
  omega

variable [Cert.Pre_finite_inputs.Facts]

theorem pre_read (x0 : FVec Ideal S1024x512 .f32) (x1 : IVec S1024 32) (x2 : FVec Ideal S100000x512 .f32)
    (h : Cert.Pre_finite_inputs.fn (F := Ideal) x0 x1 x2 = fun _ => 1#1) :
    Margin.AllReal x0 ∧ Margin.InRange x1 ∧ Margin.AllReal x2 := by
  haveI : Subsingleton S_.Idx := ⟨fun a b => funext fun d => d.elim0⟩
  have e := congrFun h ValueIdx.ix0
  dsimp only [fn, fn_part1] at e
  -- the precondition is the conjunction of four tests, each over every entry of one argument
  obtain ⟨e, hlt⟩ := IntOp.andi_eq_one.1 e
  obtain ⟨e, hge⟩ := IntOp.andi_eq_one.1 e
  obtain ⟨h0, h2⟩ := IntOp.andi_eq_one.1 e
  refine ⟨fun i => ?_, fun n => ?_, fun i => ?_⟩
  · -- |x0 i| < +∞
    exact real_of_abs_lt (x0 i) (Host.reduce_andi_all _ _ _ _ _ h0 i)
  · -- 0 ≤ x1 n < 100000, read signed
    exact toNat_lt_of_signed (x1 (ix1 n)) (Host.reduce_andi_all _ _ _ _ _ hge (ix1 n))
      (Host.reduce_andi_all _ _ _ _ _ hlt (ix1 n))
  · -- |x2 i| < +∞
    exact real_of_abs_lt (x2 i) (Host.reduce_andi_all _ _ _ _ _ h2 i)

end Cert.Pre_finite_inputs.Hand

end
-- ==== Proof.KDefs.lean ====
/-
  Names for the arrays the region reads and the array it writes, as functions into the extended reals.
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-- The region's result array, [2, 1024, 1]: one column of row sums per half of the classes. -/
abbrev outArr (c : Dev nD) : S2x1024x1.Idx → EReal := (dats m 0 c).arrAt 3 cfg0.N

/-- The arrays the region finds, as matrices: the normalised embedding rows, the per-row offsets, the class rows. -/
def Earr (c : Dev nD) : Fin 1024 → Fin 512 → EReal := fun n k => (V m c main_v8 : S1024x512.Idx → EReal) (ix2 n k)
def Barr (c : Dev nD) : Fin 1024 → EReal := fun n => (V m c main_v28 : S1024x1.Idx → EReal) (ix2 n (0 : Fin 1))
def Warr (c : Dev nD) : Fin 100000 → Fin 512 → EReal := fun cc k => (V m c main_arg2 : S100000x512.Idx → EReal) (ix2 cc k)

end Cert.KernelIdeal.Hand

end
-- ==== Proof.KTail.lean ====
/-
  The run of the whole program with the host operations after the region read: the result is the mean of
  log(1 + row) over the rows, each row the two halves of the region's result array added, less 9.
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«430320_j77790447665631_3_alg».proof.Proof.KDefs
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- Half `h` of a [2, 1024, 1] array, sliced out as [1, 1024, 1] and read as a vector of 1024: entry `i` is the
    array's entry (h, i, 0). -/
theorem half_apply (A : S2x1024x1.Idx → EReal) (h : Fin 2) (off : Fin 3 → ℕ) (hoff : off = ![h.val, 0, 0])
    (hs : S2x1024x1.Slices off S1x1024x1) (i : S1024.Idx) :
    shapeCast S1024 (extractStridedSlice S1x1024x1 off A hs) shapeCasts_S1x1024x1_S1024 i
      = A (ix3 h (i 0) (0 : Fin 1)) := by
  subst hoff
  refine (shapeCast_apply _ shapeCasts_S1x1024x1_S1024 i (ix3 (0 : Fin 1) (i 0) (0 : Fin 1)) ?_).trans ?_
  · refine (Shape.rowMajor_val_three _).trans ((?_ : _ = (i 0).val).trans (Shape.rowMajor_val_one i).symm)
    show (0 * 1024 + (i 0).val) * 1 + 0 = (i 0).val
    omega
  · refine extractStridedSlice_apply _ A _ _ (ix3 h (i 0) (0 : Fin 1)) ?_
    intro a
    match a with
    | ⟨0, _⟩ => show h.val = h.val + 0; omega
    | ⟨1, _⟩ => show (i 0).val = 0 + (i 0).val; omega
    | ⟨2, _⟩ => show 0 = 0 + 0; rfl

/-- The row vector the last operations start from: the two halves added entry by entry, less the constant 9. -/
theorem rows_apply (A : S2x1024x1.Idx → EReal) (i : S1024.Idx) :
    subf (F := Ideal) (φ := .f32)
        (addf (F := Ideal) (φ := .f32)
          (shapeCast S1024 (extractStridedSlice S1x1024x1 ![0, 0, 0] A slices_S2x1024x1_S1x1024x1_0_0_0) shapeCasts_S1x1024x1_S1024)
          (shapeCast S1024 (extractStridedSlice S1x1024x1 ![1, 0, 0] A slices_S2x1024x1_S1x1024x1_1_0_0) shapeCasts_S1x1024x1_S1024))
        (broadcastInDim S1024 ![] bcast_S_S1024 (constant (F := Ideal) S_ .f32 0x41100000#32)) i
      = (A (ix3 (0 : Fin 2) (i 0) (0 : Fin 1)) + A (ix3 (1 : Fin 2) (i 0) (0 : Fin 1))) - Margin.nineW := by
  rw [subf_apply, addf_apply]
  refine congrArg₂ (fun a b : EReal => a - b)
    (congrArg₂ (fun a b : EReal => a + b)
      (half_apply A 0 ![0, 0, 0] rfl slices_S2x1024x1_S1x1024x1_0_0_0 i)
      (half_apply A 1 ![1, 0, 0] rfl slices_S2x1024x1_S1x1024x1_1_0_0 i)) ?_
  unfold Margin.nineW
  rfl

/-- What the operations after the region leave in the result buffer: the mean of log(1 + row) over the row vector
    read off the region's result array. -/
theorem tail_val (c : Dev nD) :
    Pipeline.afterTail₀ cfgs (dats m) 0 (V0 m) [hostOps1] c main_v39
      = Margin.tailVec reducesTo_S1024_S_d0 h_S_ (fun i =>
            (outArr m c (ix3 (0 : Fin 2) (i 0) (0 : Fin 1)) + outArr m c (ix3 (1 : Fin 2) (i 0) (0 : Fin 1))) - Margin.nineW) := by
  unfold Pipeline.afterTail₀
  show StableHlo.after hostOps1 _ (Proc.devRef .tc main_v39) = _
  after_results
  unfold Margin.tailVec
  refine congrArg (fun x => Host.divf (Host.reduceAdd (Host.log1p x) (constant (F := Ideal) S_ .f32 0x00000000#32) reducesTo_S1024_S_d0 h_S_) (constant (F := Ideal) S_ .f32 0x44800000#32)) ?_
  funext i
  refine (rows_apply _ i).trans ?_
  rw [Pipeline.withArrays_arr spec0 launch0.win.arr_inj c _ _ 3]

/-- The whole program's run: the result is the mean of log(1 + row) over the rows, and the three arguments are as launched. -/
theorem run_tail : θ_run defs (onTc (τ := τ) (main (F := Ideal))) ⟨m, fun _ => 0, ρ⟩ (fun r => ∀ c : Dev nD,
      r.2.mem ((c.tc : Thread nD τ).loc main_v39)
        = Margin.tailVec reducesTo_S1024_S_d0 h_S_ (fun i =>
            (outArr m c (ix3 (0 : Fin 2) (i 0) (0 : Fin 1)) + outArr m c (ix3 (1 : Fin 2) (i 0) (0 : Fin 1))) - Margin.nineW)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v39 (Pipeline.mem_restRefs_of main_v39 (by decide) (by decide))).trans (tail_val m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c)))⟩) (run_main m ρ)

end Cert.KernelIdeal.Hand

end
-- ==== Proof.KBody.lean ====
/-
  What one grid point leaves in the carried accumulator and, at a half's last point, in the output block:
  each case's stores read back as the body's arithmetic on the blocks it loaded.
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F] [Named F]

/-- The origin of a rank-2 block, as the constant-zero offset. -/
theorem hz2 : (![0, 0] : Fin 2 → Nat) = fun _ => 0 := funext fun a => by fin_cases a <;> rfl

/-- The origin of a rank-3 block, as the constant-zero offset. -/
theorem hz3 : (![0, 0, 0] : Fin 3 → Nat) = fun _ => 0 := funext fun a => by fin_cases a <;> rfl

/-- One tile's update of the accumulator `xs`: the accumulator plus the tile's row sums. -/
abbrev step (x0 : Vec F S1024x512 .bf16) (x1 : Vec F S1024x1 .f32) (x2 : Vec F S2000x512 .f32) (xs : Vec F S1024x1 .f32) :
    Vec F S1024x1 .f32 := k0_pay1 (k0_pay4 x2 x0 x1 xs)

/-- A half's first point: the accumulator is reset to zero, then updated. -/
theorem scratch_A (c : Dev nD) (i : grid0.Coords) (a2 : Memref sig .tc .vmem S1024x512 .bf16) (h2 : a2.IsWhole) (a3 : Memref sig .tc .vmem S1024x1 .f32) (h3 : a3.IsWhole) (a4 : Memref sig .tc .vmem S2000x512 .f32) (h4 : a4.IsWhole) (a5 : Memref sig .tc .vmem S1x1024x1 .f32) (h5 : a5.IsWhole) (a6 : Memref sig .tc .vmem S1024x1 .f32) (h6 : a6.IsWhole) (hc0 : cond0_0 i) (hc1 : ¬cond0_1 i)
    (x0 : Vec F S1024x512 .bf16) (x1 : Vec F S1024x1 .f32) (x2 : Vec F S2000x512 .f32) :
    sout0_A_0 c i a2 h2 a3 h3 a4 h4 a5 h5 a6 h6 hc0 hc1 x0 x1 x2 = step x0 x1 x2 (k0_pay3 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) hz2, View.readCov_unit_zero (S := S1024x1) _ hz2]
  simp only [View.readAt_eq_ld, h2.read_unread, h3.read_unread, h4.read_unread, h6.read_unread,
    View.ld_unit_zero (S := S2000x512) hz2, View.ld_unit_zero (S := S1024x512) hz2,
    View.ld_unit_zero (S := S1024x1) hz2]

/-- A middle point: the accumulator the point before left, updated. -/
theorem scratch_B (c : Dev nD) (i : grid0.Coords) (a2 : Memref sig .tc .vmem S1024x512 .bf16) (h2 : a2.IsWhole) (a3 : Memref sig .tc .vmem S1024x1 .f32) (h3 : a3.IsWhole) (a4 : Memref sig .tc .vmem S2000x512 .f32) (h4 : a4.IsWhole) (a5 : Memref sig .tc .vmem S1x1024x1 .f32) (h5 : a5.IsWhole) (a6 : Memref sig .tc .vmem S1024x1 .f32) (h6 : a6.IsWhole) (hc0 : ¬cond0_0 i) (hc1 : ¬cond0_1 i)
    (x0 : Vec F S1024x512 .bf16) (x1 : Vec F S1024x1 .f32) (x2 : Vec F S2000x512 .f32) (xs0 : Vec F S1024x1 .f32) :
    sout0_B_0 c i a2 h2 a3 h3 a4 h4 a5 h5 a6 h6 hc0 hc1 x0 x1 x2 xs0 = step x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz2]
  simp only [View.readAt_eq_ld, h2.read_unread, h3.read_unread, h4.read_unread, h6.read_unread,
    View.ld_unit_zero (S := S2000x512) hz2, View.ld_unit_zero (S := S1024x512) hz2,
    View.ld_unit_zero (S := S1024x1) hz2]

/-- A half's last point: the same update of the accumulator, -/
theorem scratch_C (c : Dev nD) (i : grid0.Coords) (a2 : Memref sig .tc .vmem S1024x512 .bf16) (h2 : a2.IsWhole) (a3 : Memref sig .tc .vmem S1024x1 .f32) (h3 : a3.IsWhole) (a4 : Memref sig .tc .vmem S2000x512 .f32) (h4 : a4.IsWhole) (a5 : Memref sig .tc .vmem S1x1024x1 .f32) (h5 : a5.IsWhole) (a6 : Memref sig .tc .vmem S1024x1 .f32) (h6 : a6.IsWhole) (hc0 : ¬cond0_0 i) (hc1 : cond0_1 i)
    (x0 : Vec F S1024x512 .bf16) (x1 : Vec F S1024x1 .f32) (x2 : Vec F S2000x512 .f32) (xs0 : Vec F S1024x1 .f32) :
    sout0_C_0 c i a2 h2 a3 h3 a4 h4 a5 h5 a6 h6 hc0 hc1 x0 x1 x2 xs0 = step x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread,
    View.ld_unit_zero (S := S2000x512) hz2, View.ld_unit_zero (S := S1024x512) hz2,
    View.ld_unit_zero (S := S1024x1) hz2]

/-- and the output block is that accumulator, as a [1, 1024, 1] block. -/
theorem out_C (c : Dev nD) (i : grid0.Coords) (a2 : Memref sig .tc .vmem S1024x512 .bf16) (h2 : a2.IsWhole) (a3 : Memref sig .tc .vmem S1024x1 .f32) (h3 : a3.IsWhole) (a4 : Memref sig .tc .vmem S2000x512 .f32) (h4 : a4.IsWhole) (a5 : Memref sig .tc .vmem S1x1024x1 .f32) (h5 : a5.IsWhole) (a6 : Memref sig .tc .vmem S1024x1 .f32) (h6 : a6.IsWhole) (hc0 : ¬cond0_0 i) (hc1 : cond0_1 i)
    (x0 : Vec F S1024x512 .bf16) (x1 : Vec F S1024x1 .f32) (x2 : Vec F S2000x512 .f32) (xs0 : Vec F S1024x1 .f32) :
    out0_C_3 c i a2 h2 a3 h3 a4 h4 a5 h5 a6 h6 hc0 hc1 x0 x1 x2 xs0 = k0_pay2 (step x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread,
    View.ld_unit_zero (S := S2000x512) hz2, View.ld_unit_zero (S := S1024x512) hz2,
    View.ld_unit_zero (S := S1024x1) hz2,
    View.readCov_unit_zero (S := S1024x1) _ hz2]

end Cert.KernelIdeal.Hand

end
-- ==== Proof.KPay.lean ====
/-
  The body's arithmetic read at an entry, over the extended reals: one tile adds to row `n` of the accumulator the
  sum over the tile's 2000 classes of the positive parts of 30 · clip(cosine) + offset, the class rows normalised
  by the reciprocal square root of their guarded sum of squares.
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

section Layout
variable {α : Type}

/-- A vector of length a cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of a matrix of extended reals, read at row i. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  match ax with
  | ⟨0, _⟩ => rfl
  | ⟨1, _⟩ => rfl

/-! The matrix product of the tile: which entries of the two operands meet at contraction index k. -/

theorem lhs_tile_0 (i : S1024x2000.Idx) (q : dot_S1024x512_S2000x512_S1024x2000_1_1_0_0_n_n.contr.Idx) :
    (dot_S1024x512_S2000x512_S1024x2000_1_1_0_0_n_n.lhsIdx i q 0).val = (i 0).val := by
  unfold DotDims.lhsIdx
  rw [dif_neg (show ¬(0 : Fin S1024x512.rank) ∈ dot_S1024x512_S2000x512_S1024x2000_1_1_0_0_n_n.lhsBatch by decide), dif_pos (show (0 : Fin S1024x512.rank) ∈ dot_S1024x512_S2000x512_S1024x2000_1_1_0_0_n_n.lhsNonContracting by decide)]
  rfl
theorem lhs_tile_1 (i : S1024x2000.Idx) (q : dot_S1024x512_S2000x512_S1024x2000_1_1_0_0_n_n.contr.Idx) :
    (dot_S1024x512_S2000x512_S1024x2000_1_1_0_0_n_n.lhsIdx i q 1).val = (q ⟨0, by decide⟩).val :=
  dot_S1024x512_S2000x512_S1024x2000_1_1_0_0_n_n.lhsIdx_val_of_single rfl i q
theorem rhs_tile_0 (i : S1024x2000.Idx) (q : dot_S1024x512_S2000x512_S1024x2000_1_1_0_0_n_n.contr.Idx) :
    (dot_S1024x512_S2000x512_S1024x2000_1_1_0_0_n_n.rhsIdx i q 0).val = (i 1).val := by
  unfold DotDims.rhsIdx
  rw [dif_neg (show ¬(0 : Fin S2000x512.rank) ∈ dot_S1024x512_S2000x512_S1024x2000_1_1_0_0_n_n.rhsBatch by decide), dif_pos (show (0 : Fin S2000x512.rank) ∈ dot_S1024x512_S2000x512_S1024x2000_1_1_0_0_n_n.rhsNonContracting by decide)]
  rfl
theorem rhs_tile_1 (i : S1024x2000.Idx) (q : dot_S1024x512_S2000x512_S1024x2000_1_1_0_0_n_n.contr.Idx) :
    (dot_S1024x512_S2000x512_S1024x2000_1_1_0_0_n_n.rhsIdx i q 1).val = (q ⟨0, by decide⟩).val :=
  dot_S1024x512_S2000x512_S1024x2000_1_1_0_0_n_n.rhsIdx_val_of_single rfl i q

/-- Entry (n, c') of the product into a zero accumulator: row n of the block against row c' of the tile. -/
theorem product_apply (A : FVec Ideal S1024x512 .bf16) (B : FVec Ideal S2000x512 .bf16) (n : Fin 1024) (c' : Fin 2000) :
    matmul (F := Ideal) dot_S1024x512_S2000x512_S1024x2000_1_1_0_0_n_n none A B (constant (F := Ideal) S1024x2000 .f32 0x00000000#32) (ix2 n c')
      = ∑ k : Fin 512, A (ix2 n k) * B (ix2 c' k) := by
  simp only [matmul]
  rw [Ideal.matmul_constant_zero_apply, ← Equiv.sum_comp (contrEquiv1 dot_S1024x512_S2000x512_S1024x2000_1_1_0_0_n_n 512 rfl rfl).symm]
  refine Finset.sum_congr rfl fun k _ => ?_
  have hk := contrEquiv1_symm_val dot_S1024x512_S2000x512_S1024x2000_1_1_0_0_n_n 512 rfl rfl k
  have el : dot_S1024x512_S2000x512_S1024x2000_1_1_0_0_n_n.lhsIdx (ix2 n c') ((contrEquiv1 dot_S1024x512_S2000x512_S1024x2000_1_1_0_0_n_n 512 rfl rfl).symm k) = ix2 n k := funext fun a => Fin.ext (by
    match a with
    | ⟨0, _⟩ => exact lhs_tile_0 _ _
    | ⟨1, _⟩ => exact (lhs_tile_1 _ _).trans hk)
  have er : dot_S1024x512_S2000x512_S1024x2000_1_1_0_0_n_n.rhsIdx (ix2 n c') ((contrEquiv1 dot_S1024x512_S2000x512_S1024x2000_1_1_0_0_n_n 512 rfl rfl).symm k) = ix2 c' k := funext fun a => Fin.ext (by
    match a with
    | ⟨0, _⟩ => exact rhs_tile_0 _ _
    | ⟨1, _⟩ => exact (rhs_tile_1 _ _).trans hk)
  rw [el, er]

/-- Keeping a value where it exceeds zero and zero elsewhere is its positive part. -/
theorem positivePart_eq (d : EReal) :
    Scalar.select (FloatOps.cmpf (F := Ideal) (φ := .f32) .ogt d (FloatOps.ofBits (F := Ideal) .f32 0x00000000#32)) d
      (FloatOps.ofBits (F := Ideal) .f32 0x00000000#32) = Margin.relu d := by
  rw [Ideal.cmpf_def, Ideal.ofBits_def, Ideal.ofBits_zero_f32]
  unfold Scalar.select Ideal.cmp Margin.relu
  by_cases h : 0 < d
  · simp [h]
  · simp [h]

/-- The guard under the square root is the named square of the norm guard. -/
theorem guard_eq : Named.named (F := Ideal) κ "eps_sq" (φ := .f32) 0x179ABE15#32 = Margin.epsSq := rfl

/-- The reciprocal square root of a vector, read at an entry. -/
theorem rsqrt_apply {s : Shape} (a : FVec Ideal s .f32) (i : s.Idx) : rsqrt a i = Ideal.rsqrt (a i) := rfl

/-! The body's arithmetic in three stages: the normalised tile, the clipped cosines, the row sums. -/

/-- The normalised tile: entry (c', k) of the class rows times the reciprocal square root of the row's guarded sum of
    squares. -/
theorem normalised_apply (x2 : FVec Ideal S2000x512 .f32) (c' : Fin 2000) (k : Fin 512) :
    (truncf (F := Ideal) .bf16 (mulf x2 (broadcastTo S2000x512 (rsqrt (maximumf
        (shapeCast S2000x1 (multiReduction (F := Ideal) .add [1] S2000 (mulf x2 x2) 0x00000000#32 reduces_S2000x512_S2000
          (.inl rfl) rfl) shapeCasts_S2000_S2000x1)
        (broadcast S2000x1 (Named.named (F := Ideal) κ "eps_sq" (φ := .f32) 0x179ABE15#32))))
        broadcasts_S2000x1_S2000x512)) bitsLt_bf16_f32) (ix2 c' k)
      = x2 (ix2 c' k) * Ideal.rsqrt (max (∑ k' : Fin 512, x2 (ix2 c' k') * x2 (ix2 c' k')) Margin.epsSq) := by
  rw [truncf_apply, mulf_apply, broadcastTo_a1_ab_apply, rsqrt_apply, maximumf_apply, broadcast_apply, guard_eq]
  refine congrArg (fun t => x2 (ix2 c' k) * Ideal.rsqrt (max t Margin.epsSq)) ?_
  refine (shapeCast_a_a1_apply _ _ c' 0).trans ?_
  exact rowSum_apply _ _ _ _ c'

/-- The clipped cosines: entry (n, c') of the product of the block and a tile, clipped into [lo, hi]. -/
theorem clipped_apply (A : FVec Ideal S1024x512 .bf16) (B : FVec Ideal S2000x512 .bf16) (n : Fin 1024) (c' : Fin 2000) :
    minimumf (broadcast S1024x2000 (Scalar.ofBits (F := Ideal) .f32 0x3F7FFFFE#32))
        (maximumf (broadcast S1024x2000 (Scalar.ofBits (F := Ideal) .f32 0xBF7FFFFE#32))
          (matmul (F := Ideal) dot_S1024x512_S2000x512_S1024x2000_1_1_0_0_n_n none A B (constant (F := Ideal) S1024x2000 .f32 0x00000000#32))) (ix2 n c')
      = Margin.clip (∑ k : Fin 512, A (ix2 n k) * B (ix2 c' k)) := by
  rw [minimumf_apply, broadcast_apply, maximumf_apply, broadcast_apply, product_apply]
  rfl

/-- The row sums: row n of the accumulator plus the sum over the tile's classes of the positive parts of the scaled
    cosines plus the row's offset. -/
theorem rowSums_apply (C : FVec Ideal S1024x2000 .f32) (x1 xs : FVec Ideal S1024x1 .f32) (n : Fin 1024) :
    addf xs (shapeCast S1024x1 (multiReduction (F := Ideal) .add [1] S1024
        (select (cmpf .ogt
            (addf (mulf C (broadcast S1024x2000 (Scalar.ofBits (F := Ideal) .f32 0x41F00000#32)))
              (broadcastTo S1024x2000 x1 broadcasts_S1024x1_S1024x2000))
            (broadcast S1024x2000 (Scalar.ofBits (F := Ideal) .f32 0x00000000#32)))
          (addf (mulf C (broadcast S1024x2000 (Scalar.ofBits (F := Ideal) .f32 0x41F00000#32)))
            (broadcastTo S1024x2000 x1 broadcasts_S1024x1_S1024x2000))
          (broadcast S1024x2000 (Scalar.ofBits (F := Ideal) .f32 0x00000000#32)))
        0x00000000#32 reduces_S1024x2000_S1024 (.inl rfl) rfl) shapeCasts_S1024_S1024x1) (ix2 n (0 : Fin 1))
      = xs (ix2 n (0 : Fin 1))
          + ∑ c' : Fin 2000, Margin.relu (C (ix2 n c') * Margin.scaleW + x1 (ix2 n (0 : Fin 1))) := by
  rw [addf_apply]
  refine congrArg (xs (ix2 n (0 : Fin 1)) + ·) ?_
  refine (shapeCast_a_a1_apply _ _ n 0).trans ?_
  refine (rowSum_apply _ _ _ _ n).trans ?_
  refine Finset.sum_congr rfl fun c' _ => ?_
  rw [select_apply, cmpf_apply, broadcast_apply]
  refine (positivePart_eq _).trans ?_
  rw [addf_apply, broadcastTo_a1_ab_apply, mulf_apply, broadcast_apply]
  rfl

/-- Row `n` of the tile's update. `x0` is the block of normalised embedding rows, `x1` the column of offsets,
    `x2` the tile of class rows, `xs` the accumulator. -/
theorem step_apply (x0 : Vec Ideal S1024x512 .bf16) (x1 : Vec Ideal S1024x1 .f32) (x2 : Vec Ideal S2000x512 .f32)
    (xs : Vec Ideal S1024x1 .f32) (n : Fin 1024) :
    k0_pay1 (F := Ideal) (k0_pay4 (F := Ideal) x2 x0 x1 xs) (ix2 n (0 : Fin 1))
      = xs (ix2 n (0 : Fin 1)) + ∑ c' : Fin 2000, Margin.relu (Margin.clip (∑ k : Fin 512, x0 (ix2 n k)
          * (x2 (ix2 c' k) * Ideal.rsqrt (max (∑ k' : Fin 512, x2 (ix2 c' k') * x2 (ix2 c' k')) Margin.epsSq)))
          * Margin.scaleW + x1 (ix2 n (0 : Fin 1))) := by
  unfold k0_pay1 k0_pay4
  simp only [shapeCast_self]
  refine (rowSums_apply _ x1 xs n).trans ?_
  refine congrArg (xs (ix2 n (0 : Fin 1)) + ·) (Finset.sum_congr rfl fun c' _ => ?_)
  refine congrArg (fun t => Margin.relu (t * Margin.scaleW + x1 (ix2 n (0 : Fin 1)))) ?_
  refine (clipped_apply x0 _ n c').trans ?_
  exact congrArg Margin.clip (Finset.sum_congr rfl fun k _ => congrArg (x0 (ix2 n k) * ·) (normalised_apply x2 c' k))

/-- The reset value is zero. -/
theorem zero_apply (i : S1024x1.Idx) : k0_pay3 (F := Ideal) i = 0 := by
  unfold k0_pay3
  simp only [shapeCast_self]
  exact Ideal.ofBits_zero_f32

/-- The output block holds the accumulator's column. -/
theorem block_apply (v : Vec Ideal S1024x1 .f32) (n : Fin 1024) :
    k0_pay2 (F := Ideal) v (ix3 (0 : Fin 1) n (0 : Fin 1)) = v (ix2 n (0 : Fin 1)) := by
  unfold k0_pay2
  exact shapeCast_ab_1ab_apply v _ 0 n 0

end Cert.KernelIdeal.Hand

end
-- ==== Proof.KAccum.lean ====
/-
  The accumulator point by point and the result array of the region: entry (h, n, 0) of the [2, 1024, 1] array
  is half `h`'s accumulator after its 25 tiles, row `n`.
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«430320_j77790447665631_3_alg».proof.Proof.KDefs
import proofs.«430320_j77790447665631_3_alg».proof.Proof.KBody
import proofs.«430320_j77790447665631_3_alg».proof.Proof.KPay

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-- The blocks a grid point loads, by their literal types: the whole matrix of normalised embedding rows, the whole
    column of offsets, and the point's tile of 2000 class rows. -/
abbrev eblk (c : Dev nD) (t : Fin cfg0.N) : Vec Ideal S1024x512 .bf16 := iblk m c 0 t
abbrev bblk (c : Dev nD) (t : Fin cfg0.N) : Vec Ideal S1024x1 .f32 := iblk m c 1 t
abbrev wblk (c : Dev nD) (t : Fin cfg0.N) : Vec Ideal S2000x512 .f32 := iblk m c 2 t

/-- The block indices of the four windows at a point: the first two never move, the class tile is the point's number,
    the output block is the point's half. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 25 ∧ win0_3.index t (1 : Fin 3) = 0 ∧ win0_3.index t (2 : Fin 3) = 0 :=
  (by decide +kernel : ∀ t : Fin grid0.N, _)

/-- Every point loads the whole matrix of normalised embedding rows, -/
theorem eblk_apply (c : Dev nD) (t : Fin cfg0.N) (n : Fin 1024) (k : Fin 512) :
    eblk m c t (ix2 n k) = Earr m c n k := by
  show iblk m c 0 t (ix2 n k) = _
  unfold iblk
  rw [View.read_apply]
  show V m c main_v8 (((cfg0.win 0).blk t).view.emb (ix2 n k)) = V m c main_v8 (ix2 n k)
  congr 1
  funext a; apply Fin.ext
  obtain ⟨e0, e1, -⟩ := idx_facts t
  match a with
  | ⟨0, _⟩ => show win0_0.index t (0 : Fin 2) * 1024 + 1 * n.val = n.val; omega
  | ⟨1, _⟩ => show win0_0.index t (1 : Fin 2) * 512 + 1 * k.val = k.val; omega

/-- the whole column of offsets, -/
theorem bblk_apply (c : Dev nD) (t : Fin cfg0.N) (n : Fin 1024) :
    bblk m c t (ix2 n (0 : Fin 1)) = Barr m c n := by
  show iblk m c 1 t (ix2 n (0 : Fin 1)) = _
  unfold iblk
  rw [View.read_apply]
  show V m c main_v28 (((cfg0.win 1).blk t).view.emb (ix2 n (0 : Fin 1))) = V m c main_v28 (ix2 n (0 : Fin 1))
  congr 1
  funext a; apply Fin.ext
  obtain ⟨-, -, e0, e1, -⟩ := idx_facts t
  match a with
  | ⟨0, _⟩ => show win0_1.index t (0 : Fin 2) * 1024 + 1 * n.val = n.val; omega
  | ⟨1, _⟩ => show win0_1.index t (1 : Fin 2) * 1 + 1 * (0 : Fin 1).val = (0 : Fin 1).val; omega

/-- and rows 2000·t … 2000·t + 1999 of the class matrix. -/
theorem wblk_apply (c : Dev nD) (t : Fin cfg0.N) (c' : Fin 2000) (k : Fin 512) :
    wblk m c t (ix2 c' k) = Warr m c (Margin.col t.val c') k := by
  show iblk m c 2 t (ix2 c' k) = _
  unfold iblk
  rw [View.read_apply]
  show V m c main_arg2 (((cfg0.win 2).blk t).view.emb (ix2 c' k)) = V m c main_arg2 (ix2 (Margin.col t.val c') k)
  congr 1
  funext a; apply Fin.ext
  obtain ⟨-, -, -, -, e0, e1, -⟩ := idx_facts t
  have hN : t.val < 50 := lt_of_lt_of_eq t.isLt (show cfg0.N = 50 from N_0)
  have hc : c'.val < 2000 := c'.isLt
  match a with
  | ⟨0, _⟩ =>
    show win0_2.index t (0 : Fin 2) * 2000 + 1 * c'.val = (2000 * t.val + c'.val) % 100000
    rw [Nat.mod_eq_of_lt (by omega)]; omega
  | ⟨1, _⟩ => show win0_2.index t (1 : Fin 2) * 512 + 1 * k.val = k.val; omega

/-- One tile's sum, read through the blocks: when the loaded blocks hold row `n` of the embedding matrix, its offset
    and the class rows of tile `t`, the body's sum over the tile's 2000 classes is the tile's part of the row sum. -/
theorem part_of_blocks (W : Fin 100000 → Fin 512 → EReal) (E : Fin 1024 → Fin 512 → EReal) (B : Fin 1024 → EReal)
    (x0 : Vec Ideal S1024x512 .bf16) (x1 : Vec Ideal S1024x1 .f32) (x2 : Vec Ideal S2000x512 .f32) (t : ℕ) (n : Fin 1024)
    (h0 : ∀ k : Fin 512, x0 (ix2 n k) = E n k) (h1 : x1 (ix2 n (0 : Fin 1)) = B n)
    (h2 : ∀ (c' : Fin 2000) (k : Fin 512), x2 (ix2 c' k) = W (Margin.col t c') k) :
    (∑ c' : Fin 2000, Margin.relu (Margin.clip (∑ k : Fin 512, x0 (ix2 n k)
        * (x2 (ix2 c' k) * Ideal.rsqrt (max (∑ k' : Fin 512, x2 (ix2 c' k') * x2 (ix2 c' k')) Margin.epsSq)))
        * Margin.scaleW + x1 (ix2 n (0 : Fin 1))))
      = Margin.partArr W E B n t := by
  unfold Margin.partArr Margin.cosArr Margin.normRowK
  simp only [h0, h1, h2]

/-- One point's update of the accumulator, row `n`: the tile's part of the row sum is added. -/
theorem step_point (c : Dev nD) (t : Fin cfg0.N) (xs : Vec Ideal S1024x1 .f32) (n : Fin 1024) :
    step (F := Ideal) (eblk m c t) (bblk m c t) (wblk m c t) xs (ix2 n (0 : Fin 1))
      = xs (ix2 n (0 : Fin 1)) + Margin.partArr (Warr m c) (Earr m c) (Barr m c) n t.val :=
  (step_apply (eblk m c t) (bblk m c t) (wblk m c t) xs n).trans
    (congrArg (fun z => xs (ix2 n (0 : Fin 1)) + z)
      (part_of_blocks (Warr m c) (Earr m c) (Barr m c) (eblk m c t) (bblk m c t) (wblk m c t) t.val n
        (fun k => eblk_apply m c t n k) (bblk_apply m c t n) (fun c' k => wblk_apply m c t c' k)))

/-- The accumulator after a half's first point: zero plus the first tile's part. -/
theorem acc_first (c : Dev nD) (t : Fin cfg0.N) (h0 : t.val % 25 = 0) (h1 : ¬t.val % 25 = 24) (n : Fin 1024) :
    (outsAt0 m c t.val t.isLt).2 (ix2 n (0 : Fin 1))
      = 0 + Margin.partArr (Warr m c) (Earr m c) (Barr m c) n t.val := by
  rw [outsAt0_A m c t h0 h1]
  dsimp only
  refine (congrFun (scratch_A (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (eblk m c t) (bblk m c t) (wblk m c t)) (ix2 n (0 : Fin 1))).trans ?_
  refine (step_point m c t (k0_pay3 (F := Ideal)) n).trans ?_
  rw [zero_apply]

/-- At a middle point the accumulator the point before left gains the tile's part, -/
theorem acc_mid (c : Dev nD) (t : Fin cfg0.N) (h0 : ¬t.val % 25 = 0) (h1 : ¬t.val % 25 = 24) (n : Fin 1024) :
    (outsAt0 m c t.val t.isLt).2 (ix2 n (0 : Fin 1))
      = (outsAt0 m c (t.val - 1) (Nat.lt_of_le_of_lt (Nat.sub_le _ _) t.isLt)).2 (ix2 n (0 : Fin 1))
        + Margin.partArr (Warr m c) (Earr m c) (Barr m c) n t.val := by
  rw [outsAt0_B m c t h0 h1]
  dsimp only
  refine (congrFun (scratch_B (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) (fun h => h1 ((hcond0_1 t).mp h))
    (eblk m c t) (bblk m c t) (wblk m c t)
    (outsAt0 m c (t.val - 1) (Nat.lt_of_le_of_lt (Nat.sub_le _ _) t.isLt)).2) (ix2 n (0 : Fin 1))).trans ?_
  exact step_point m c t _ n

/-- and so it does at a half's last point, -/
theorem acc_last (c : Dev nD) (t : Fin cfg0.N) (h0 : ¬t.val % 25 = 0) (h1 : t.val % 25 = 24) (n : Fin 1024) :
    (outsAt0 m c t.val t.isLt).2 (ix2 n (0 : Fin 1))
      = (outsAt0 m c (t.val - 1) (Nat.lt_of_le_of_lt (Nat.sub_le _ _) t.isLt)).2 (ix2 n (0 : Fin 1))
        + Margin.partArr (Warr m c) (Earr m c) (Barr m c) n t.val := by
  rw [outsAt0_C m c t h0 h1]
  dsimp only
  refine (congrFun (scratch_C (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (eblk m c t) (bblk m c t) (wblk m c t)
    (outsAt0 m c (t.val - 1) (Nat.lt_of_le_of_lt (Nat.sub_le _ _) t.isLt)).2) (ix2 n (0 : Fin 1))).trans ?_
  exact step_point m c t _ n

/-- where the output block is the accumulator's column: its entry (0, n, 0) is the accumulator's row `n`. -/
theorem out_last (c : Dev nD) (t : Fin cfg0.N) (h0 : ¬t.val % 25 = 0) (h1 : t.val % 25 = 24) (n : Fin 1024) :
    (outsAt0 m c t.val t.isLt).1 (ix3 (0 : Fin 1) n (0 : Fin 1)) = (outsAt0 m c t.val t.isLt).2 (ix2 n (0 : Fin 1)) := by
  rw [outsAt0_C m c t h0 h1]
  dsimp only
  refine ((congrFun (out_C (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (eblk m c t) (bblk m c t) (wblk m c t)
    (outsAt0 m c (t.val - 1) (Nat.lt_of_le_of_lt (Nat.sub_le _ _) t.isLt)).2) (ix3 (0 : Fin 1) n (0 : Fin 1))).trans ?_).trans
    (congrFun (scratch_C (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (eblk m c t) (bblk m c t) (wblk m c t)
    (outsAt0 m c (t.val - 1) (Nat.lt_of_le_of_lt (Nat.sub_le _ _) t.isLt)).2) (ix2 n (0 : Fin 1))).symm
  exact block_apply _ n

/-- THE INVARIANT. After point `k` — tile `k % 25` of half `k / 25` — row `n` of the carried accumulator is the half's
    running sum over its tiles so far: by induction on the point, a half's first point starting from zero. -/
theorem acc_inv (c : Dev nD) (n : Fin 1024) : ∀ (k : ℕ) (hk : k < cfg0.N),
    (outsAt0 m c k hk).2 (ix2 n (0 : Fin 1))
      = Margin.accArr (Warr m c) (Earr m c) (Barr m c) n (k / 25) (k % 25) := by
  intro k
  induction k using Nat.strong_induction_on with
  | _ k ih =>
    intro hk
    have hN : k < 50 := lt_of_lt_of_eq hk (show cfg0.N = 50 from N_0)
    by_cases h0 : k % 25 = 0
    · have h1 : ¬k % 25 = 24 := by omega
      rw [acc_first m c ⟨k, hk⟩ h0 h1 n, h0]
      show _ = 0 + Margin.partArr (Warr m c) (Earr m c) (Barr m c) n (25 * (k / 25))
      rw [show 25 * (k / 25) = k by omega]
    · obtain ⟨j, hj⟩ : ∃ j, k % 25 = j + 1 := ⟨k % 25 - 1, by omega⟩
      have hprev := ih (k - 1) (by omega) (Nat.lt_of_le_of_lt (Nat.sub_le _ _) hk)
      rw [show (k - 1) / 25 = k / 25 by omega, show (k - 1) % 25 = j by omega] at hprev
      have hstep : (outsAt0 m c k hk).2 (ix2 n (0 : Fin 1))
          = (outsAt0 m c (k - 1) (Nat.lt_of_le_of_lt (Nat.sub_le _ _) hk)).2 (ix2 n (0 : Fin 1))
            + Margin.partArr (Warr m c) (Earr m c) (Barr m c) n k := by
        by_cases h1 : k % 25 = 24
        · exact acc_last m c ⟨k, hk⟩ h0 h1 n
        · exact acc_mid m c ⟨k, hk⟩ h0 h1 n
      rw [hstep, hprev, hj]
      show _ = Margin.accArr (Warr m c) (Earr m c) (Barr m c) n (k / 25) j
        + Margin.partArr (Warr m c) (Earr m c) (Barr m c) n (25 * (k / 25) + (j + 1))
      rw [show 25 * (k / 25) + (j + 1) = k by omega]

/-- The running sum depends on the row and the half only through their values. -/
theorem acc_congr (W : Fin 100000 → Fin 512 → EReal) (E : Fin 1024 → Fin 512 → EReal) (B : Fin 1024 → EReal)
    {n n' : Fin 1024} {h h' : ℕ} (hn : n.val = n'.val) (hh : h = h') :
    Margin.accArr W E B n h 24 = Margin.accArr W E B n' h' 24 := by
  obtain rfl : n = n' := Fin.ext hn
  subst hh
  rfl

/-- The result array of the region: entry (h, n, 0) is half `h`'s sum over its 25 tiles, row `n`. -/
abbrev resArr (c : Dev nD) : S2x1024x1.Idx → EReal :=
  fun i => Margin.accArr (Warr m c) (Earr m c) (Barr m c) ⟨(i 1).val, (i 1).isLt⟩ (i 0).val 24

/-- Every entry of the output block at a half's last point is the half's full sum of that row. -/
theorem out_entry (c : Dev nD) (t : Fin cfg0.N) (h1 : t.val % 25 = 24) (Y : S1x1024x1.Idx) :
    (outsAt0 m c t.val t.isLt).1 Y
      = Margin.accArr (Warr m c) (Earr m c) (Barr m c) ⟨(Y 1).val, (Y 1).isLt⟩ (t.val / 25) 24 := by
  obtain ⟨a, n, d, rfl⟩ : ∃ (a : Fin 1) (n : Fin 1024) (d : Fin 1), Y = ix3 a n d := ⟨Y 0, Y 1, Y 2, eq_ix3 Y⟩
  obtain rfl : a = 0 := Subsingleton.elim _ _
  obtain rfl : d = 0 := Subsingleton.elim _ _
  have h0 : ¬t.val % 25 = 0 := by omega
  rw [out_last m c t h0 h1 n, acc_inv m c n t.val t.isLt, h1]

/-- What a half's last point writes back is its block — row-block `t / 25` — of the result array. -/
theorem flushed_eq (c : Dev nD) (t : Fin cfg0.N) (hf : (cfg0.win 3).flush t = true) :
    (dats m 0 c).flushed 3 t = ((cfg0.win 3).blk t).view.read (Elt Ideal) (resArr m c) := by
  have h1 : t.val % 25 = 24 := (flush0_3 t).mp hf
  show (cfg0.win 3).cut (grid0.coords t) ((dats m 0 c).after 3 t) = _
  rw [after0_3]
  funext y
  rw [View.read_apply]
  refine (out_entry m c t h1 _).trans ?_
  obtain ⟨-, -, -, -, -, -, e0, e1, e2⟩ := idx_facts t
  have hy0 : (y 0).val < 1 := (y 0).isLt
  refine acc_congr _ _ _ ?_ ?_
  · show (y 1).val = win0_3.index t (1 : Fin 3) * 1024 + 1 * (y 1).val
    omega
  · show t.val / 25 = win0_3.index t (0 : Fin 3) * 1 + 1 * (y 0).val
    omega

/-- The result array after the region. -/
theorem out_array (c : Dev nD) (h : Fin 2) (n : Fin 1024) :
    outArr m c (ix3 h n (0 : Fin 1)) = Margin.accArr (Warr m c) (Earr m c) (Barr m c) n h.val 24 := by
  have hh : h.val < 2 := h.isLt
  obtain ⟨t, ht⟩ : ∃ t : Fin cfg0.N, t.val = 25 * h.val + 24 :=
    ⟨⟨25 * h.val + 24, by rw [show cfg0.N = 50 from N_0]; omega⟩, rfl⟩
  have hf : (cfg0.win 3).flush t = true := (flush0_3 t).mpr (by omega)
  refine ((dats m 0 c).arrAt_apply_of_mem 3 (resArr m c) (fun t hf => flushed_eq m c t hf) cfg0.N t
    (ix3 h n (0 : Fin 1)) t.isLt hf ?_).trans rfl
  show ix3 h n (0 : Fin 1) ∈ ((View.whole main_v29).slice (win0_3.rect t)).set
  rw [View.set_slice_whole, Rect.mem_set_unit]
  obtain ⟨-, -, -, -, -, -, e0, e1, e2⟩ := idx_facts t
  intro a
  match a with
  | ⟨0, _⟩ =>
    show win0_3.index t (0 : Fin 3) * 1 ≤ h.val ∧ h.val < win0_3.index t (0 : Fin 3) * 1 + 1
    omega
  | ⟨1, _⟩ =>
    show win0_3.index t (1 : Fin 3) * 1024 ≤ n.val ∧ n.val < win0_3.index t (1 : Fin 3) * 1024 + 1024
    have := n.isLt
    omega
  | ⟨2, _⟩ =>
    show win0_3.index t (2 : Fin 3) * 1 ≤ (0 : Fin 1).val ∧ (0 : Fin 1).val < win0_3.index t (2 : Fin 3) * 1 + 1
    rw [e2]; exact ⟨Nat.le_refl _, Nat.lt_succ_self _⟩

end Cert.KernelIdeal.Hand

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.KHostE.lean ====
/-
  The first array the region reads: the embedding rows divided by their guarded norms (the eleven host
  operations before the label gather; the change of float format is the identity over the extended reals).
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The eleven operations as one term of the argument. -/
def embTerm (x0 : (⟨S1024x512, .f32⟩ : BufTy).Contents (Elt Ideal)) : (⟨S1024x512, .bf16⟩ : BufTy).Contents (Elt Ideal) :=
  truncf .bf16 (Host.divf x0 (broadcastInDim S1024x512 ![0, 1] bcast_S1024x1_S1024x512_0_1
    (maximumf (Host.sqrt (broadcastInDim S1024x1 ![0] bcast_S1024_S1024x1_0
        (Host.reduceAdd (mulf x0 x0) (constant (F := Ideal) S_ .f32 0x00000000#32) reducesTo_S1024x512_S1024_d1 h_S_)))
      (broadcastInDim S1024x1 ![] bcast_S_S1024x1 (constant (F := Ideal) S_ .f32 0x2B8CBCCC#32))))) bitsLt_bf16_f32

/-- A column broadcast along the rows reads its operand at column 0 of the same row. -/
theorem bcast_rows (y : (⟨S1024x1, .f32⟩ : BufTy).Contents (Elt Ideal)) (n : Fin 1024) (k : Fin 512) :
    broadcastInDim S1024x512 ![0, 1] bcast_S1024x1_S1024x512_0_1 y (ix2 n k) = y (ix2 n (0 : Fin 1)) :=
  broadcastInDim_apply _ bcast_S1024x1_S1024x512_0_1 y (ix2 n k) (ix2 n (0 : Fin 1)) (fun a => match a with
    | ⟨0, _⟩ => by show n.val = if (1024 : Nat) = 1 then 0 else n.val; rw [if_neg (by decide)]
    | ⟨1, _⟩ => by show 0 = if (1 : Nat) = 1 then 0 else k.val; rw [if_pos rfl])

/-- A scalar broadcast to a column reads the scalar. -/
theorem bcast_scalar (y : (⟨S_, .f32⟩ : BufTy).Contents (Elt Ideal)) (j : S1024x1.Idx) :
    broadcastInDim S1024x1 ![] bcast_S_S1024x1 y j = y ix0 :=
  broadcastInDim_apply _ bcast_S_S1024x1 y j ix0 (fun a => a.elim0)

/-- A vector turned into a column reads the vector at the row. -/
theorem bcast_col (y : (⟨S1024, .f32⟩ : BufTy).Contents (Elt Ideal)) (n : Fin 1024) :
    broadcastInDim S1024x1 ![0] bcast_S1024_S1024x1_0 y (ix2 n (0 : Fin 1)) = y (ix1 n) :=
  broadcastInDim_apply _ bcast_S1024_S1024x1_0 y (ix2 n (0 : Fin 1)) (ix1 n) (fun a => match a with
    | ⟨0, _⟩ => by show n.val = if (1024 : Nat) = 1 then 0 else n.val; rw [if_neg (by decide)])

/-- The sum along a row: the initial value plus the sum of the row's 512 entries. -/
theorem rowSum (y : FVec Ideal S1024x512 .f32) (init : FVec Ideal S_ .f32) (n : Fin 1024) :
    Host.reduceAdd (F := Ideal) (φ := .f32) y init reducesTo_S1024x512_S1024_d1 h_S_ (ix1 n) = init (Shape.Idx.first h_S_) + ∑ k' : Fin 512, y (ix2 n k') := by
  simp only [Host.reduceAdd, Ideal.hostReduceAdd_def]
  rw [Ideal.hostReduceAdd_single reducesTo_S1024x512_S1024_d1 (by decide)]
  refine congrArg (_ + ·) (Finset.sum_congr rfl fun k' _ => ?_)
  exact congrArg y (funext fun a => Fin.ext (by match a with | ⟨0, _⟩ => rfl | ⟨1, _⟩ => rfl))

/-- The term read at row `n`, column `k`: the entry over the row's guarded norm. -/
theorem embTerm_apply (x0 : (⟨S1024x512, .f32⟩ : BufTy).Contents (Elt Ideal)) (n : Fin 1024) (k : Fin 512) :
    embTerm x0 (ix2 n k) = Margin.normRow (Margin.embOf x0) n k := by
  unfold embTerm
  show Ideal.div (x0 (ix2 n k)) (broadcastInDim (s := S1024x1) S1024x512 ![0, 1] bcast_S1024x1_S1024x512_0_1 _ (ix2 n k)) = _
  rw [bcast_rows]
  show Ideal.div (x0 (ix2 n k)) (max (Ideal.sqrt (broadcastInDim (s := S1024) S1024x1 ![0] bcast_S1024_S1024x1_0 _ (ix2 n (0 : Fin 1))))
    (broadcastInDim (s := S_) S1024x1 ![] bcast_S_S1024x1 _ (ix2 n (0 : Fin 1)))) = _
  rw [bcast_col, bcast_scalar, rowSum]
  show Ideal.div (x0 (ix2 n k)) (max (Ideal.sqrt (Ideal.ofBits .f32 0x00000000#32 + ∑ k' : Fin 512, x0 (ix2 n k') * x0 (ix2 n k')))
    (Ideal.ofBits .f32 0x2B8CBCCC#32)) = _
  rw [Ideal.ofBits_zero_f32]
  rfl

variable (m : (ℓ : Loc nD τ sig) → Buf (Elt Ideal) ℓ)

/-- The array the region finds in the normalised-embedding buffer: written by the eleventh operation before the
    region and by no later one, it is the eleven operations' term of the embedding argument, read at row `n`,
    column `k`. -/
theorem entry_emb (c : Dev nD) (n : Fin 1024) (k : Fin 512) :
    (V m c main_v8 : S1024x512.Idx → EReal) (ix2 n k)
      = Margin.normRow (Margin.embOf (m ((c.tc : Thread nD τ).loc main_arg0))) n k := by
  have e : (V m c main_v8 : S1024x512.Idx → EReal) = embTerm (m ((c.tc : Thread nD τ).loc main_arg0)) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact embTerm_apply _ n k

end Cert.KernelIdeal.Hand

end
-- ==== Proof.KHostB.lean ====
/-
  The second array the region reads, the per-row offset: 9 minus 30 times the clipped cosine of the normalised
  embedding row and the normalised class row of the row's label (the label's row taken by a gather whose
  out-of-range fill is never selected when the labels are class indices).

  The host operations before the region come in five stretches (the embedding's normalisation; the gather of the
  labels' class rows; those rows' normalisation and the row-by-row product sum; the clip; the scaling and the
  offset). The contents after all five are the contents after each in turn, and each stretch is read at an entry
  as a function of the contents before it.
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Idealize.ShloMosaic.Lib.StableHlo.Predicate
import Idealize.ShloMosaic.Lib.ReduceAll
import Idealize.ShloMosaic.Lib.Tactic
import proofs.«430320_j77790447665631_3_alg».proof.Proof.LibRowGather
import proofs.«430320_j77790447665631_3_alg».proof.Proof.KHostE

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-- The contents when the region is entered, stretch by stretch. -/
theorem V0_split (c : Dev nD) : V0 m c = StableHlo.after hostOps0_4 (StableHlo.after hostOps0_3 (StableHlo.after hostOps0_2
    (StableHlo.after hostOps0_1 (StableHlo.after hostOps0 (fun b => m (c, b)))))) := by
  show StableHlo.after (List.flatten [hostOps0, hostOps0_1, hostOps0_2, hostOps0_3, hostOps0_4]) (fun b => m (c, b)) = _
  rw [List.flatten_cons, StableHlo.after_append, List.flatten_cons, StableHlo.after_append, List.flatten_cons, StableHlo.after_append,
    List.flatten_cons, StableHlo.after_append, List.flatten_cons, List.flatten_nil, List.append_nil]

/-- A scalar broadcast to a vector reads the scalar everywhere. -/
private theorem bc_S1024 {α : Type} (y : S_.Idx → α) (i : S1024.Idx) :
    broadcastInDim S1024 ![] bcast_S_S1024 y i = y ix0 :=
  broadcastInDim_apply _ bcast_S_S1024 y i ix0 (fun a => a.elim0)

/-- A scalar broadcast to a column reads the scalar everywhere. -/
private theorem bc_S1024x1 {α : Type} (y : S_.Idx → α) (i : S1024x1.Idx) :
    broadcastInDim S1024x1 ![] bcast_S_S1024x1 y i = y ix0 :=
  broadcastInDim_apply _ bcast_S_S1024x1 y i ix0 (fun a => a.elim0)

/-- The last stretch: 9 minus 30 times the clipped sum, laid as a column. -/
theorem L4 (W : Valuation τ sig (Elt Ideal)) (A : S1024.Idx → EReal) (hA : W (Proc.devRef .tc main_v23) = A) (n : Fin 1024) :
    (StableHlo.after hostOps0_4 W (Proc.devRef .tc main_v28) : S1024x1.Idx → EReal) (ix2 n (0 : Fin 1))
      = Margin.nineW - A (ix1 n) * Margin.scaleW := by
  subst hA
  dsimp only [hostOps0_4]
  after_results
  refine (shapeCast_apply _ shapeCasts_S1024_S1024x1 (ix2 n 0) (ix1 n) ?_).trans ?_
  · rw [Shape.rowMajor_val_two, Shape.rowMajor_val_one]
    show n.val = n.val * 1 + 0
    omega
  · rw [subf_apply, mulf_apply, bc_S1024, bc_S1024, constant_apply, constant_apply]
    rfl

/-- The clip: the larger of the low bound and the sum, then the smaller of that and the high bound. -/
theorem L3 (W : Valuation τ sig (Elt Ideal)) (A : S1024.Idx → EReal) (lo hi : S_.Idx → EReal)
    (hA : W (Proc.devRef .tc main_v22) = A) (hlo : W (Proc.devRef .tc main_cst_4) = lo) (hhi : W (Proc.devRef .tc main_cst_5) = hi)
    (n : Fin 1024) :
    (StableHlo.after hostOps0_3 W (Proc.devRef .tc main_v23) : S1024.Idx → EReal) (ix1 n)
      = min (hi ix0) (max (lo ix0) (A (ix1 n))) := by
  subst hA hlo hhi
  dsimp only [hostOps0_3]
  after_results
  simp only [StableHlo.TRef.toBuf, StableHlo.TRef.ofBuf, cast_eq, id]
  rw [minimumf_apply, maximumf_apply, bc_S1024, bc_S1024]

/-- A vector laid as a column reads, at (n, 0), the vector at n. -/
private theorem bc_col {α : Type} (y : S1024.Idx → α) (n : Fin 1024) :
    broadcastInDim S1024x1 ![0] bcast_S1024_S1024x1_0 y (ix2 n (0 : Fin 1)) = y (ix1 n) :=
  broadcastInDim_apply _ bcast_S1024_S1024x1_0 y (ix2 n 0) (ix1 n) (fun a => match a with
    | ⟨0, _⟩ => by show n.val = if (1024 : Nat) = 1 then 0 else n.val; rw [if_neg (by decide)])

/-- A column stretched along the rows reads, at (n, k), the column at (n, 0). -/
private theorem bc_row (y : S1024x1.Idx → EReal) (n : Fin 1024) (k : Fin 512) :
    broadcastInDim S1024x512 ![0, 1] bcast_S1024x1_S1024x512_0_1 y (ix2 n k) = y (ix2 n (0 : Fin 1)) :=
  broadcastInDim_apply _ bcast_S1024x1_S1024x512_0_1 y (ix2 n k) (ix2 n 0) (fun a => match a with
    | ⟨0, _⟩ => by show n.val = if (1024 : Nat) = 1 then 0 else n.val; rw [if_neg (by decide)]
    | ⟨1, _⟩ => by show 0 = if (1 : Nat) = 1 then 0 else k.val; rw [if_pos rfl])

/-- The sum over a row: the initial value plus the sum of the row's 512 entries. -/
private theorem rowsum (y : FVec Ideal S1024x512 .f32) (z : FVec Ideal S_ .f32) (n : Fin 1024) :
    (Host.reduceAdd y z reducesTo_S1024x512_S1024_d1 h_S_ : S1024.Idx → EReal) (ix1 n)
      = z ix0 + ∑ k : Fin 512, y (ix2 n k) := by
  simp only [Host.reduceAdd, Ideal.hostReduceAdd_def]
  rw [Ideal.hostReduceAdd_single reducesTo_S1024x512_S1024_d1 (by decide)]
  refine congrArg₂ (· + ·) (congrArg z (funext fun a => a.elim0)) (Finset.sum_congr rfl fun k _ => ?_)
  exact congrArg y (funext fun a => Fin.ext (by match a with | ⟨0, _⟩ => rfl | ⟨1, _⟩ => rfl))

private theorem hsqrt_apply {s : Shape} (x : FVec Ideal s .f32) (i : s.Idx) : Host.sqrt x i = Ideal.sqrt (x i) := rfl
private theorem hdivf_apply {s : Shape} (a b : FVec Ideal s .f32) (i : s.Idx) : Host.divf a b i = Ideal.div (a i) (b i) := rfl

/-- A matrix divided row by row by its guarded Euclidean norm, read at an entry. -/
private theorem norm_apply (G : FVec Ideal S1024x512 .f32) (n : Fin 1024) (k : Fin 512) :
    (Host.divf G (broadcastInDim S1024x512 ![0, 1] bcast_S1024x1_S1024x512_0_1
        (maximumf (Host.sqrt (broadcastInDim S1024x1 ![0] bcast_S1024_S1024x1_0
            (Host.reduceAdd (mulf G G) (constant (F := Ideal) S_ .f32 0x00000000#32) reducesTo_S1024x512_S1024_d1 h_S_)))
          (broadcastInDim S1024x1 ![] bcast_S_S1024x1 (constant (F := Ideal) S_ .f32 0x2B8CBCCC#32)))) : S1024x512.Idx → EReal) (ix2 n k)
      = Ideal.div (G (ix2 n k)) (max (Ideal.sqrt (0 + ∑ k', G (ix2 n k') * G (ix2 n k'))) Margin.epsW) := by
  rw [hdivf_apply, bc_row, maximumf_apply, hsqrt_apply, bc_col, bc_S1024x1, rowsum, constant_apply, constant_apply,
    Ideal.ofBits_zero_f32]
  rfl

/-- The third stretch: the gathered rows are normalised and multiplied, entry by entry, with the normalised embedding;
    each row is summed. -/
theorem L2 (W : Valuation τ sig (Elt Ideal)) (G : FVec Ideal S1024x512 .f32) (E : FVec Ideal S1024x512 .bf16)
    (hG : W (Proc.devRef .tc main_v9) = G) (hE : W (Proc.devRef .tc main_v8) = E) (n : Fin 1024) :
    (StableHlo.after hostOps0_2 W (Proc.devRef .tc main_v22) : S1024.Idx → EReal) (ix1 n)
      = 0 + ∑ k : Fin 512, E (ix2 n k) *
          Ideal.div (G (ix2 n k)) (max (Ideal.sqrt (0 + ∑ k', G (ix2 n k') * G (ix2 n k'))) Margin.epsW) := by
  subst hG hE
  dsimp only [hostOps0_2]
  after_results
  rw [rowsum, constant_apply, Ideal.ofBits_zero_f32]
  refine congrArg (0 + ·) (Finset.sum_congr rfl fun k _ => ?_)
  rw [mulf_apply, extf_apply, extf_apply, truncf_apply, norm_apply]

/-- The same stretch writes the clip's two bounds. -/
theorem L2lo (W : Valuation τ sig (Elt Ideal)) :
    (StableHlo.after hostOps0_2 W (Proc.devRef .tc main_cst_4) : S_.Idx → EReal) = constant (F := Ideal) S_ .f32 0xBF7FFFFE#32 := by
  dsimp only [hostOps0_2]
  after_results

theorem L2hi (W : Valuation τ sig (Elt Ideal)) :
    (StableHlo.after hostOps0_2 W (Proc.devRef .tc main_cst_5) : S_.Idx → EReal) = constant (F := Ideal) S_ .f32 0x3F7FFFFE#32 := by
  dsimp only [hostOps0_2]
  after_results

/-- A fold by `and` over words that are all 1, started at 1, is 1. -/
private theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi (1#1 : BitVec 1) 1#1 = 1#1 by decide]
    exact foldl_andi_ones f hf l

/-- A reduction by `and` from 1 of an array of 1s is 1 everywhere. -/
private theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _

/-- A class index read as a signed word: not negative, at least 0 and at most 99999. -/
private theorem word_facts (v : BitVec 32) (hv : v.toNat < 100000) :
    IntOp.cmpi .slt v 0#32 = 0#1 ∧ IntOp.cmpi .sge v 0#32 = 1#1 ∧ IntOp.cmpi .sle v 99999#32 = 1#1 := by
  have hi : v.toInt = v.toNat := StableHlo.Predicate.toInt_eq_toNat_of_lt (by omega)
  have e0 : (0#32 : BitVec 32).toInt = 0 := by decide
  have e1 : (99999#32 : BitVec 32).toInt = 99999 := by decide
  refine ⟨eq_zero_of_ne_one fun h => ?_, ?_, ?_⟩
  · rw [IntOp.cmpi_slt, hi, e0] at h
    omega
  · rw [IntOp.cmpi_sge, hi, e0]
    omega
  · rw [IntOp.cmpi_sle, hi, e1]
    omega

/-- The upper bound 99999, a one-entry vector stretched to a column, reads 99999 everywhere. -/
private theorem hi_apply (i : S1024x1.Idx) :
    broadcastInDim S1024x1 ![0, 1] bcast_S1x1_S1024x1_0_1
      (broadcastInDim S1x1 ![1] bcast_S1_S1x1_1 (constantI S1 32 99999#32)) i = 99999#32 := by
  rw [broadcastInDim_apply _ bcast_S1x1_S1024x1_0_1 _ i (ix2 (0 : Fin 1) (0 : Fin 1)) (fun a => match a with
    | ⟨0, _⟩ => (if_pos rfl).symm
    | ⟨1, _⟩ => (if_pos rfl).symm)]
  rw [broadcastInDim_apply _ bcast_S1_S1x1_1 _ _ (ix1 (0 : Fin 1)) (fun a => match a with
    | ⟨0, _⟩ => (if_pos rfl).symm)]
  rfl

/-- The gathered rows: with every label a class index, row n of the result is the class matrix's row of label n
    (the wrap-around of negative indices keeps the label, the bounds mask is all ones, the fill is never read). -/
theorem L1 (W : Valuation τ sig (Elt Ideal)) (lab : IVec S1024 32) (x2 : FVec Ideal S100000x512 .f32)
    (hl : W (Proc.devRef .tc main_arg1) = lab) (hx : W (Proc.devRef .tc main_arg2) = x2) (hr : Margin.InRange lab)
    (n : Fin 1024) (k : Fin 512) :
    (StableHlo.after hostOps0_1 W (Proc.devRef .tc main_v9) : S1024x512.Idx → EReal) (ix2 n k)
      = x2 (ix2 (⟨(lab (ix1 n)).toNat, hr n⟩ : Fin 100000) k) := by
  dsimp only [hostOps0_1]
  after_results_simp
  simp only [StableHlo.TRef.toBuf, StableHlo.TRef.ofBuf, cast_eq]
  rw [hl, hx]
  generalize hidx : broadcastInDim S1024x1 ![0] bcast_S1024_S1024x1_0
      (select (cmpi CmpIPredicate.slt lab (broadcastInDim S1024 ![] bcast_S_S1024 (constantI S_ 32 0#32)))
        (addi lab (broadcastInDim S1024 ![] bcast_S_S1024 (constantI S_ 32 100000#32))) lab) = idx
  -- the index column is the label column
  have hidx' : ∀ i : S1024x1.Idx, idx i = lab (ix1 (i 0)) := by
    intro i
    rw [← hidx, broadcastInDim_apply _ bcast_S1024_S1024x1_0 _ i (ix1 (i 0)) (fun a => match a with
      | ⟨0, _⟩ => by show (i 0).val = if (1024 : Nat) = 1 then 0 else (i 0).val; rw [if_neg (by decide)]), select_apply]
    have h0 : cmpi CmpIPredicate.slt lab (broadcastInDim S1024 ![] bcast_S_S1024 (constantI S_ 32 0#32)) (ix1 (i 0)) = 0#1 := by
      show IntOp.cmpi .slt (lab (ix1 (i 0))) (broadcastInDim S1024 ![] bcast_S_S1024 (constantI S_ 32 0#32) (ix1 (i 0))) = 0#1
      rw [bc_S1024]
      exact (word_facts _ (hr (i 0))).1
    rw [h0, select_zero]
  -- the bounds mask is all ones
  have hmask : ∀ i : S1024x1.Idx,
      andi (cmpi CmpIPredicate.sge idx (broadcastInDim S1024x1 ![] bcast_S_S1024x1 (constantI S_ 32 0#32)))
        (cmpi CmpIPredicate.sle idx (broadcastInDim S1024x1 ![0, 1] bcast_S1x1_S1024x1_0_1
          (broadcastInDim S1x1 ![1] bcast_S1_S1x1_1 (constantI S1 32 99999#32)))) i = 1#1 := by
    intro i
    show IntOp.andi (IntOp.cmpi .sge (idx i) (broadcastInDim S1024x1 ![] bcast_S_S1024x1 (constantI S_ 32 0#32) i))
      (IntOp.cmpi .sle (idx i) (broadcastInDim S1024x1 ![0, 1] bcast_S1x1_S1024x1_0_1
        (broadcastInDim S1x1 ![1] bcast_S1_S1x1_1 (constantI S1 32 99999#32)) i)) = 1#1
    rw [bc_S1024x1, hi_apply, hidx' i]
    exact IntOp.andi_eq_one.2 ⟨(word_facts _ (hr (i 0))).2.1, (word_facts _ (hr (i 0))).2.2⟩
  rw [select_apply, broadcastInDim_apply _ bcast_S1024_S1024x512_0 _ (ix2 n k) (ix1 n) (fun a => match a with
    | ⟨0, _⟩ => by show n.val = if (1024 : Nat) = 1 then 0 else n.val; rw [if_neg (by decide)]),
    reduce_andi_ones _ _ _ _ hmask rfl, select_one]
  -- the gather reads the class matrix at the row the label names
  rw [show gather_S100000x512_S1024x1_S1024x512_1_0_n_n_0_1_1512
      = Cert.Lib.RowGather.rowDims 100000 512 1024 gather_S100000x512_S1024x1_S1024x512_1_0_n_n_0_1_1512_wf from rfl,
    Cert.Lib.RowGather.gather_rows_apply (by decide)]
  refine congrArg (fun a => x2 (ix2 a k)) (Fin.ext ?_)
  show min (idx (ix2 n 0)).toInt.toNat (100000 - 1) = (lab (ix1 n)).toNat
  rw [hidx' (ix2 n 0)]
  show min (lab (ix1 n)).toInt.toNat (100000 - 1) = (lab (ix1 n)).toNat
  have hv := hr n
  have hi : (lab (ix1 n)).toInt = (lab (ix1 n)).toNat := StableHlo.Predicate.toInt_eq_toNat_of_lt (by omega)
  rw [hi, Int.toNat_natCast]
  omega

/-- The embedding's normalisation does not write the labels. -/
theorem K0_arg1 (W : Valuation τ sig (Elt Ideal)) :
    StableHlo.after hostOps0 W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the class matrix. -/
theorem K0_arg2 (W : Valuation τ sig (Elt Ideal)) :
    StableHlo.after hostOps0 W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The gather does not write the normalised embedding. -/
theorem K1_v8 (W : Valuation τ sig (Elt Ideal)) :
    StableHlo.after hostOps0_1 W (Proc.devRef .tc main_v8) = W (Proc.devRef .tc main_v8) :=
  StableHlo.after_of_forall_not_mem (b := Proc.devRef .tc main_v8) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the class rows' normalisation and the row sum. -/
theorem K2_v8 (W : Valuation τ sig (Elt Ideal)) :
    StableHlo.after hostOps0_2 W (Proc.devRef .tc main_v8) = W (Proc.devRef .tc main_v8) :=
  StableHlo.after_of_forall_not_mem (b := Proc.devRef .tc main_v8) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the clip. -/
theorem K3_v8 (W : Valuation τ sig (Elt Ideal)) :
    StableHlo.after hostOps0_3 W (Proc.devRef .tc main_v8) = W (Proc.devRef .tc main_v8) :=
  StableHlo.after_of_forall_not_mem (b := Proc.devRef .tc main_v8) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the scaling and the offset. -/
theorem K4_v8 (W : Valuation τ sig (Elt Ideal)) :
    StableHlo.after hostOps0_4 W (Proc.devRef .tc main_v8) = W (Proc.devRef .tc main_v8) :=
  StableHlo.after_of_forall_not_mem (b := Proc.devRef .tc main_v8) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The last algebra: with the normalised embedding row and the label's class row in hand, the chain's value at row n
    is the per-row offset. -/
private theorem assemble (E G : S1024x512.Idx → EReal) (x0 : Margin.SEmb.Idx → EReal) (x2 : Margin.SCls.Idx → EReal)
    (x1 : Margin.SLab.Idx → BitVec 32) (hr : Margin.InRange x1) (n : Fin 1024)
    (hE : ∀ k : Fin 512, E (ix2 n k) = Margin.normRow (Margin.embOf x0) n k)
    (hG : ∀ k : Fin 512, G (ix2 n k) = x2 (ix2 (⟨(x1 (ix1 n)).toNat, hr n⟩ : Fin 100000) k)) :
    Margin.nineW - min (Ideal.ofBits .f32 0x3F7FFFFE#32) (max (Ideal.ofBits .f32 0xBF7FFFFE#32)
        (0 + ∑ k : Fin 512, E (ix2 n k) * Ideal.div (G (ix2 n k))
          (max (Ideal.sqrt (0 + ∑ k' : Fin 512, G (ix2 n k') * G (ix2 n k'))) Margin.epsW))) * Margin.scaleW
      = Margin.biasKer (Margin.embOf x0) (Margin.wOf x2) (Margin.labOf x1) n := by
  -- the label as a class index is the word's value
  have hL : Margin.labOf x1 n = ⟨(x1 (ix1 n)).toNat, hr n⟩ := Fin.ext (Nat.mod_eq_of_lt (hr n))
  have hs : ∑ k' : Fin 512, G (ix2 n k') * G (ix2 n k')
      = ∑ k' : Fin 512, Margin.wOf x2 ⟨(x1 (ix1 n)).toNat, hr n⟩ k' * Margin.wOf x2 ⟨(x1 (ix1 n)).toNat, hr n⟩ k' :=
    Finset.sum_congr rfl fun k' _ => by rw [hG k']; rfl
  unfold Margin.biasKer Margin.clip
  refine congrArg (fun s => Margin.nineW - min Margin.hiW (max Margin.loW (0 + s)) * Margin.scaleW)
    (Finset.sum_congr rfl fun k _ => ?_)
  rw [hE k, hG k, hs, hL]
  rfl

theorem entry_bias (c : Dev nD) (hr : Margin.InRange (m ((c.tc : Thread nD τ).loc main_arg1))) (n : Fin 1024) :
    (V m c main_v28 : S1024x1.Idx → EReal) (ix2 n (0 : Fin 1))
      = Margin.biasKer (Margin.embOf (m ((c.tc : Thread nD τ).loc main_arg0))) (Margin.wOf (m ((c.tc : Thread nD τ).loc main_arg2)))
          (Margin.labOf (m ((c.tc : Thread nD τ).loc main_arg1))) n := by
  -- the five stretches, one after the other
  have e := V0_split m c
  generalize hW1 : StableHlo.after hostOps0 (fun b => m (c, b)) = W1 at e
  generalize hW2 : StableHlo.after hostOps0_1 W1 = W2 at e
  generalize hW3 : StableHlo.after hostOps0_2 W2 = W3 at e
  generalize hW4 : StableHlo.after hostOps0_3 W3 = W4 at e
  -- the normalised embedding is untouched since the first stretch wrote it
  have hv8 : ∀ k : Fin 512, (W2 (Proc.devRef .tc main_v8) : S1024x512.Idx → EReal) (ix2 n k)
      = Margin.normRow (Margin.embOf (m ((c.tc : Thread nD τ).loc main_arg0))) n k := by
    intro k
    rw [← entry_emb m c n k]
    show _ = (V0 m c (Proc.devRef .tc main_v8) : S1024x512.Idx → EReal) (ix2 n k)
    rw [e, K4_v8, ← hW4, K3_v8, ← hW3, K2_v8]
  -- the labels and the class matrix are as launched when the gather reads them
  have hl : W1 (Proc.devRef .tc main_arg1) = m ((c.tc : Thread nD τ).loc main_arg1) := by rw [← hW1, K0_arg1]
  have hx : W1 (Proc.devRef .tc main_arg2) = m ((c.tc : Thread nD τ).loc main_arg2) := by rw [← hW1, K0_arg2]
  have hG : ∀ k : Fin 512, (W2 (Proc.devRef .tc main_v9) : S1024x512.Idx → EReal) (ix2 n k)
      = (m ((c.tc : Thread nD τ).loc main_arg2) : S100000x512.Idx → EReal)
          (ix2 (⟨((m ((c.tc : Thread nD τ).loc main_arg1) : S1024.Idx → BitVec 32) (ix1 n)).toNat, hr n⟩ : Fin 100000) k) := by
    intro k
    rw [← hW2]
    exact L1 W1 _ _ hl hx hr n k
  show (V0 m c (Proc.devRef .tc main_v28) : S1024x1.Idx → EReal) (ix2 n 0) = _
  rw [e, L4 W4 _ rfl n, ← hW4, L3 W3 _ _ _ rfl rfl rfl n, ← hW3, L2lo, L2hi, L2 W2 _ _ rfl rfl n, constant_apply, constant_apply]
  exact assemble _ _ _ _ _ hr n hv8 hG

end Cert.KernelIdeal.Hand

end
-- ==== Proof.KRun.lean ====
/-
  The idealized kernel's run, read: its result is the mean over the rows of log(1 + row), each row in the second
  arrangement of the loss (`Margin.rowKer`) — the region's result array is the two halves' accumulators, the arrays
  the region reads are the normalised embedding rows and the per-row offsets, and the class rows are the argument.
-/
import proofs.«430320_j77790447665631_3_alg».proof.Proof.Inputs
import proofs.«430320_j77790447665631_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«430320_j77790447665631_3_alg».proof.Proof.KTail
import proofs.«430320_j77790447665631_3_alg».proof.Proof.KAccum
import proofs.«430320_j77790447665631_3_alg».proof.Proof.KHostB

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The first array the region reads is the matrix of normalised embedding rows. -/
theorem Earr_eq (c : Dev nD) :
    Earr m c = Margin.normRow (Margin.embOf (m ((c.tc : Thread nD τ).loc main_arg0))) :=
  funext fun n => funext fun k => entry_emb m c n k

/-- The second is the column of per-row offsets. -/
theorem Barr_eq (c : Dev nD) (hr : Margin.InRange (m ((c.tc : Thread nD τ).loc main_arg1))) :
    Barr m c = Margin.biasKer (Margin.embOf (m ((c.tc : Thread nD τ).loc main_arg0)))
      (Margin.wOf (m ((c.tc : Thread nD τ).loc main_arg2))) (Margin.labOf (m ((c.tc : Thread nD τ).loc main_arg1))) :=
  funext fun n => entry_bias m c hr n

/-- The third is the class-weight argument itself. -/
theorem Warr_eq (c : Dev nD) : Warr m c = Margin.wOf (m ((c.tc : Thread nD τ).loc main_arg2)) := by
  unfold Warr Margin.wOf
  rw [V_main_arg2]

/-- One row: the two halves added, less 9, is the row's loss in the second arrangement. -/
theorem row_eq (c : Dev nD) (hr : Margin.InRange (m ((c.tc : Thread nD τ).loc main_arg1))) (n : Fin 1024) :
    (outArr m c (ix3 (0 : Fin 2) n (0 : Fin 1)) + outArr m c (ix3 (1 : Fin 2) n (0 : Fin 1))) - Margin.nineW
      = Margin.rowKer (Margin.embOf (m ((c.tc : Thread nD τ).loc main_arg0))) (Margin.wOf (m ((c.tc : Thread nD τ).loc main_arg2)))
          (Margin.labOf (m ((c.tc : Thread nD τ).loc main_arg1))) n := by
  rw [out_array, out_array, Earr_eq, Barr_eq m c hr, Warr_eq]
  rfl

/-- The vector of rows. -/
theorem rows_eq (c : Dev nD) (hr : Margin.InRange (m ((c.tc : Thread nD τ).loc main_arg1))) :
    (fun i : S1024.Idx => (outArr m c (ix3 (0 : Fin 2) (i 0) (0 : Fin 1)) + outArr m c (ix3 (1 : Fin 2) (i 0) (0 : Fin 1))) - Margin.nineW)
      = Margin.rowVec (Margin.rowKer (Margin.embOf (m ((c.tc : Thread nD τ).loc main_arg0))) (Margin.wOf (m ((c.tc : Thread nD τ).loc main_arg2)))
          (Margin.labOf (m ((c.tc : Thread nD τ).loc main_arg1)))) :=
  funext fun i => row_eq m c hr (i 0)

/-- Every weakly fair execution ends with the result at the mean of log(1 + row) over the rows in the second
    arrangement, the arguments unchanged — when every label is a class index. -/
theorem run (hr : ∀ c : Dev nD, Margin.InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v39)
        = Margin.tailVec reducesTo_S1024_S_d0 h_S_ (Margin.rowVec (Margin.rowKer
            (Margin.embOf (m ((c.tc : Thread nD τ).loc main_arg0))) (Margin.wOf (m ((c.tc : Thread nD τ).loc main_arg2)))
            (Margin.labOf (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_tail m ρ)
  obtain ⟨h1, h2⟩ := h c
  refine ⟨?_, h2⟩
  rw [h1, rows_eq m c (hr c)]

end Cert.KernelIdeal.Hand

end
-- ==== Proof.RefRow.lean ====
/-
  The reference's result: the mean of log(1 + row) over the rows, each row the sum of the positive margin terms
  over the classes other than the row's label.
-/
import proofs.«430320_j77790447665631_3_alg».proof.Proof.Inputs
import proofs.«430320_j77790447665631_3_alg».proof.Proof.Gen.ReferenceIdeal.Read
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read

/- The stages of the reference, each read at explicit coordinates. -/
namespace RefRow

/-! ## The normalised rows -/

/-- Entry (n, k) of the embedding matrix divided by row n's guarded norm. -/
theorem embNorm_at (x0 : (⟨S1024x512, .f32⟩ : BufTy).Contents (Elt Ideal)) (n : Fin 1024) (k : Fin 512) :
    val_main_v7 (F := Ideal) x0 (ix2 n k) = Margin.normRow (Margin.embOf x0) n k := by
  have e : ∀ k' : Fin 512, idx_main_v1 (idx_main_v2 (idx_main_v6 (ix2 n k))) k' = ix2 n k' := fun k' =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.hostUnary_sqrt_def, Ideal.maximumf_def, Ideal.mulf_def,
    Ideal.ofBits_def, Ideal.ofBits_zero_f32]
  rfl

/-- Entry (c, k) of the class matrix divided by row c's guarded norm. -/
theorem clsNorm_at (x2 : (⟨S100000x512, .f32⟩ : BufTy).Contents (Elt Ideal)) (c : Fin 100000) (k : Fin 512) :
    val_main_v15 (F := Ideal) x2 (ix2 c k) = Margin.normRow (Margin.wOf x2) c k := by
  have e : ∀ k' : Fin 512, idx_main_v9 (idx_main_v10 (idx_main_v14 (ix2 c k))) k' = ix2 c k' := fun k' =>
    funext fun a => Fin.ext (by match a with | ⟨0, _⟩ => rfl | ⟨1, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.hostUnary_sqrt_def, Ideal.maximumf_def, Ideal.mulf_def,
    Ideal.ofBits_def, Ideal.ofBits_zero_f32]
  rfl

/-! ## The clipped cosine, scaled; the margin's left part -/

/-- The clipped cosine of embedding row n and class row c. -/
theorem cos_at (x0 : (⟨S1024x512, .f32⟩ : BufTy).Contents (Elt Ideal)) (x2 : (⟨S100000x512, .f32⟩ : BufTy).Contents (Elt Ideal))
    (n : Fin 1024) (c : Fin 100000) :
    val_main_v17 (F := Ideal) x0 x2 (ix2 n c) = Margin.cosRef (Margin.embOf x0) (Margin.wOf x2) n c := by
  have el : ∀ k : Fin 512, lidx_main_v16 (ix2 n c) k = ix2 n k := fun k =>
    funext fun a => Fin.ext (by match a with | ⟨0, _⟩ => rfl | ⟨1, _⟩ => rfl)
  have er : ∀ k : Fin 512, ridx_main_v16 (ix2 n c) k = ix2 c k := fun k =>
    funext fun a => Fin.ext (by match a with | ⟨0, _⟩ => rfl | ⟨1, _⟩ => rfl)
  rw [val_main_v17_apply, val_main_call0_v4_apply, val_main_call0_v3_apply, val_main_cst_4_apply, val_main_call0_v2_apply,
    val_main_call0_v1_apply, val_main_call0_v0_apply, val_main_cst_3_apply, val_main_v16_apply]
  simp only [el, er, embNorm_at, clsNorm_at, Ideal.minimumf_def, Ideal.maximumf_def, Ideal.ofBits_def]
  rfl

/-- The cosine times 30. -/
theorem scaled_at (x0 : (⟨S1024x512, .f32⟩ : BufTy).Contents (Elt Ideal)) (x2 : (⟨S100000x512, .f32⟩ : BufTy).Contents (Elt Ideal))
    (n : Fin 1024) (c : Fin 100000) :
    val_main_v19 (F := Ideal) x0 x2 (ix2 n c) = Margin.cosRef (Margin.embOf x0) (Margin.wOf x2) n c * Margin.scaleW := by
  rw [val_main_v19_apply, val_main_v18_apply, val_main_cst_5_apply, cos_at]
  rfl

/-- The cosine times 30, plus 9. -/
theorem shifted_at (x0 : (⟨S1024x512, .f32⟩ : BufTy).Contents (Elt Ideal)) (x2 : (⟨S100000x512, .f32⟩ : BufTy).Contents (Elt Ideal))
    (n : Fin 1024) (c : Fin 100000) :
    val_main_v23 (F := Ideal) x0 x2 (ix2 n c)
      = Margin.cosRef (Margin.embOf x0) (Margin.wOf x2) n c * Margin.scaleW + Margin.nineW := by
  rw [val_main_v23_apply, val_main_v22_apply, val_main_cst_6_apply, scaled_at]
  rfl

/-! ## The label's entry: the start index, the in-bounds mask, the gather -/

/-- Under the range hypothesis a label word reads the same signed and unsigned. -/
theorem label_toInt (x1 : (⟨S1024, .i32⟩ : BufTy).Contents (Elt Ideal)) (hr : Margin.InRange x1) (n : Fin 1024) :
    (x1 (ix1 n)).toInt = ((x1 (ix1 n)).toNat : Int) := by
  have hv := hr n
  exact BitVec.toInt_eq_toNat_of_lt (by omega)

/-- Under the range hypothesis the start index of row n is the row's label word: the wrap of a negative word is not taken. -/
theorem start_at (x1 : (⟨S1024, .i32⟩ : BufTy).Contents (Elt Ideal)) (hr : Margin.InRange x1) (n : Fin 1024) (a b : Fin 1) :
    val_main_call1_v5 (F := Ideal) x1 (ix3 n a b) = x1 (ix1 n) := by
  have e5 : idx_main_call1_v5 (ix3 n a b) = ix2 n (0 : Fin 1) := funext fun d => Fin.ext (by
    match d with
    | ⟨0, _⟩ =>
      have ha : a.val < 1 := a.isLt
      have hb : b.val < 1 := b.isLt
      show ((n.val * 1 + a.val) * 1 + b.val) / 1 = n.val
      omega
    | ⟨1, _⟩ => rfl)
  have e20 : idx_main_v20 (ix2 n (0 : Fin 1)) = ix1 n := funext fun d => Fin.ext (by match d with | ⟨0, _⟩ => rfl)
  rw [val_main_call1_v5_apply, e5, val_main_call1_v4_apply, val_main_call1_v1_apply, val_main_v20_apply, e20,
    val_main_call1_v0_apply, val_main_call1_c_apply]
  have hneg : IntOp.cmpi .slt (x1 (ix1 n)) 0#32 = 0#1 := eq_zero_of_ne_one fun h => by
    have h' := IntOp.cmpi_slt.mp h
    rw [label_toInt x1 hr n, show (0#32 : BitVec 32).toInt = 0 from by decide] at h'
    omega
  rw [hneg, select_zero]

/-- Under the range hypothesis every start index lies inside the class axis. -/
theorem inb_at (x1 : (⟨S1024, .i32⟩ : BufTy).Contents (Elt Ideal)) (hr : Margin.InRange x1) (n : Fin 1024) (a b : Fin 1) :
    val_main_call1_v11 (F := Ideal) x1 (ix3 n a b) = 1#1 := by
  rw [val_main_call1_v11_apply, val_main_call1_v7_apply, val_main_call1_v10_apply, start_at x1 hr, val_main_call1_v6_apply,
    val_main_call1_c_2_apply, val_main_call1_v9_apply, val_main_call1_v8_apply, val_main_call1_c_1_apply]
  have hv := hr n
  rw [IntOp.andi_eq_one, IntOp.cmpi_sge, IntOp.cmpi_sle, label_toInt x1 hr n,
    show (0#32 : BitVec 32).toInt = 0 from by decide, show (99999#32 : BitVec 32).toInt = 99999 from by decide]
  constructor <;> omega

/-- A fold by `and` from 1 over words that are all 1 is 1. -/
theorem fold_andi_one {ι : Type} [DecidableEq ι] (S : Finset ι) (x : ι → BitVec 1) (hx : ∀ i, x i = 1#1) :
    S.fold IntOp.andi 1#1 x = 1#1 := by
  induction S using Finset.induction_on with
  | empty => rfl
  | insert a S ha ih => rw [Finset.fold_insert ha, hx a, ih]; rfl

/-- Under the range hypothesis the gather's in-bounds mask is set in every row. -/
theorem mask_at (x1 : (⟨S1024, .i32⟩ : BufTy).Contents (Elt Ideal)) (hr : Margin.InRange x1) (j : S1024x1.Idx) :
    val_main_call1_v12 (F := Ideal) x1 j = 1#1 := by
  classical
  unfold val_main_call1_v12
  rw [Host.reduce_eq_fold]
  exact fold_andi_one _ _ fun i => by rw [eq_ix3 i]; exact inb_at x1 hr _ _ _

/-! ## The gather along the class axis, row by row -/

/-- The gather's dimension numbers: the row axis batched, the class axis collapsed and start-indexed. -/
abbrev rowTake : GatherDims S1024x100000 S1024x1x1 S1024x1 := gather_S1024x100000_S1024x1x1_S1024x1_n_1_0_0_1_2_11

/-- On the row axis the gather reads the result's own row. -/
theorem rowTake_axis0 (idx : IVec S1024x1x1 32) (n : Fin 1024) :
    (rowTake.operandIdx (ix2 n (0 : Fin 1)) idx 0).val = n.val := by
  show rowTake.start (ix2 n (0 : Fin 1)) idx 0 + rowTake.batchCoord (ix2 n (0 : Fin 1)) 0 + rowTake.offCoord (ix2 n (0 : Fin 1)) 0 = _
  rw [GatherDims.start_batching _ _ _ _ (show (0 : Fin S1024x100000.rank) ∈ rowTake.operandBatchingDims by decide),
    GatherDims.offCoord_eq_zero _ _ _ (fun h => ((GatherDims.mem_sKept _ _).mp h).2 (by decide))]
  simp only [Nat.add_zero, Nat.zero_add]
  unfold GatherDims.batchCoord
  rw [dif_pos (show (0 : Fin S1024x100000.rank) ∈ rowTake.operandBatchingDims by decide)]
  rfl

/-- On the class axis the gather reads the row's start index, signed and clamped into the axis. -/
theorem rowTake_axis1 (idx : IVec S1024x1x1 32) (n : Fin 1024) :
    (rowTake.operandIdx (ix2 n (0 : Fin 1)) idx 1).val = min (idx (ix3 n (0 : Fin 1) (0 : Fin 1))).toInt.toNat 99999 := by
  show rowTake.start (ix2 n (0 : Fin 1)) idx 1 + rowTake.batchCoord (ix2 n (0 : Fin 1)) 1 + rowTake.offCoord (ix2 n (0 : Fin 1)) 1 = _
  rw [GatherDims.batchCoord_eq_zero _ _ _ (show (1 : Fin S1024x100000.rank) ∉ rowTake.operandBatchingDims by decide),
    GatherDims.offCoord_eq_zero _ _ _ (fun h => ((GatherDims.mem_sKept _ _).mp h).1 (by decide))]
  simp only [Nat.add_zero]
  unfold GatherDims.start
  rw [dif_pos (show (1 : Fin S1024x100000.rank) ∈ rowTake.startIndexMap by decide)]
  have hsi : rowTake.siIdx (ix2 n (0 : Fin 1)) ⟨List.idxOf (1 : Fin S1024x100000.rank) rowTake.startIndexMap,
      List.idxOf_lt_length_iff.2 (by decide)⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- The gather read at row n: the operand at (n, the row's start index read signed and clamped). -/
theorem gather_row {α : Type} (x : S1024x100000.Idx → α) (idx : IVec S1024x1x1 32) (n : Fin 1024) :
    Host.gather rowTake x idx (ix2 n (0 : Fin 1))
      = x (ix2 n ⟨min (idx (ix3 n (0 : Fin 1) (0 : Fin 1))).toInt.toNat 99999, by omega⟩) := by
  unfold Host.gather
  congr 1
  funext a
  refine Fin.ext ?_
  match a with
  | ⟨0, _⟩ => exact rowTake_axis0 idx n
  | ⟨1, _⟩ => exact rowTake_axis1 idx n

/-! ## The label's scaled cosine, the margin terms, the row -/

/-- Under the range hypothesis the entry taken along the class axis is the label's scaled cosine. -/
theorem labelEntry_at (x0 : (⟨S1024x512, .f32⟩ : BufTy).Contents (Elt Ideal)) (x1 : (⟨S1024, .i32⟩ : BufTy).Contents (Elt Ideal))
    (x2 : (⟨S100000x512, .f32⟩ : BufTy).Contents (Elt Ideal)) (hr : Margin.InRange x1) (n : Fin 1024) :
    val_main_v21 (F := Ideal) x0 x1 x2 (ix2 n (0 : Fin 1))
      = Margin.cosRef (Margin.embOf x0) (Margin.wOf x2) n (Margin.labOf x1 n) * Margin.scaleW := by
  rw [val_main_v21_apply, mask_at x1 hr, select_one]
  unfold val_main_call1_v13
  show Host.gather rowTake _ _ _ = _
  rw [gather_row, ← scaled_at]
  have hs := start_at x1 hr n (0 : Fin 1) (0 : Fin 1)
  have hv := hr n
  have hti := label_toInt x1 hr n
  refine congrArg (fun q : Fin 100000 => val_main_v19 (F := Ideal) x0 x2 (ix2 n q)) (Fin.ext ?_)
  show min (val_main_call1_v5 (F := Ideal) x1 (ix3 n (0 : Fin 1) (0 : Fin 1))).toInt.toNat 99999 = (x1 (ix1 n)).toNat % 100000
  rw [hs]
  omega

/-- The margin term of class c in row n. -/
theorem delta_at (x0 : (⟨S1024x512, .f32⟩ : BufTy).Contents (Elt Ideal)) (x1 : (⟨S1024, .i32⟩ : BufTy).Contents (Elt Ideal))
    (x2 : (⟨S100000x512, .f32⟩ : BufTy).Contents (Elt Ideal)) (hr : Margin.InRange x1) (n : Fin 1024) (c : Fin 100000) :
    val_main_v25 (F := Ideal) x0 x1 x2 (ix2 n c)
      = Margin.deltaRef (Margin.embOf x0) (Margin.wOf x2) (Margin.labOf x1) n c := by
  have e24 : idx_main_v24 (ix2 n c) = ix2 n (0 : Fin 1) :=
    funext fun a => Fin.ext (by match a with | ⟨0, _⟩ => rfl | ⟨1, _⟩ => rfl)
  rw [val_main_v25_apply, val_main_v24_apply, e24, labelEntry_at x0 x1 x2 hr, shifted_at]
  rfl

/-- The column's index word differs from the row's label word exactly when the class is not the label. -/
theorem notLabel_at (x1 : (⟨S1024, .i32⟩ : BufTy).Contents (Elt Ideal)) (hr : Margin.InRange x1) (n : Fin 1024) (c : Fin 100000) :
    val_main_v31 (F := Ideal) x1 (ix2 n c) = 1#1 ↔ c ≠ Margin.labOf x1 n := by
  have e30 : idx_main_v28 (idx_main_v30 (ix2 n c)) = ix1 n := funext fun a => Fin.ext (by match a with | ⟨0, _⟩ => rfl)
  rw [val_main_v31_apply, val_main_v29_apply, val_main_v27_apply, val_main_v26_apply, val_main_v30_apply, val_main_v28_apply, e30,
    IntOp.cmpi_ne]
  show BitVec.ofNat 32 c.val ≠ x1 (ix1 n) ↔ _
  have hv := hr n
  have hc := c.isLt
  refine not_congr ⟨fun h => Fin.ext ?_, fun h => BitVec.eq_of_toNat_eq ?_⟩
  · have h' := congrArg BitVec.toNat h
    rw [BitVec.toNat_ofNat] at h'
    show c.val = (x1 (ix1 n)).toNat % 100000
    omega
  · have h' : c.val = (x1 (ix1 n)).toNat % 100000 := congrArg Fin.val h
    rw [BitVec.toNat_ofNat]
    omega

/-- The ordered "greater than" of the extended reals. -/
theorem ogt_iff (x y : EReal) : FloatOps.cmpf (F := Ideal) (φ := .f32) .ogt x y = 1#1 ↔ y < x := by
  show BitVec.ofBool (decide (y < x)) = 1#1 ↔ y < x
  by_cases h : y < x
  · simp [h]
  · simp [h]

/-- The summand of class c in row n: the margin term where the class is not the label and the term is positive, else 0. -/
theorem term_at (x0 : (⟨S1024x512, .f32⟩ : BufTy).Contents (Elt Ideal)) (x1 : (⟨S1024, .i32⟩ : BufTy).Contents (Elt Ideal))
    (x2 : (⟨S100000x512, .f32⟩ : BufTy).Contents (Elt Ideal)) (hr : Margin.InRange x1) (n : Fin 1024) (c : Fin 100000) :
    val_main_v35 (F := Ideal) x0 x1 x2 (ix2 n c)
      = if c ≠ Margin.labOf x1 n ∧ 0 < Margin.deltaRef (Margin.embOf x0) (Margin.wOf x2) (Margin.labOf x1) n c
        then Margin.deltaRef (Margin.embOf x0) (Margin.wOf x2) (Margin.labOf x1) n c else 0 := by
  rw [val_main_v35_apply, val_main_v34_apply, val_main_v33_apply, val_main_v32_apply, val_main_cst_7_apply, val_main_call2_v1_apply,
    val_main_call2_v0_apply, val_main_cst_8_apply, delta_at x0 x1 x2 hr]
  simp only [Ideal.ofBits_def, Ideal.ofBits_zero_f32]
  by_cases h : c ≠ Margin.labOf x1 n ∧ 0 < Margin.deltaRef (Margin.embOf x0) (Margin.wOf x2) (Margin.labOf x1) n c
  · rw [if_pos h, (notLabel_at x1 hr n c).mpr h.1, (ogt_iff _ _).mpr h.2]
    exact select_one _ _
  · rw [if_neg h]
    have hz : IntOp.andi (val_main_v31 (F := Ideal) x1 (ix2 n c))
        (FloatOps.cmpf (F := Ideal) (φ := .f32) .ogt (Margin.deltaRef (Margin.embOf x0) (Margin.wOf x2) (Margin.labOf x1) n c) 0) = 0#1 :=
      eq_zero_of_ne_one fun e => h ⟨(notLabel_at x1 hr n c).mp (IntOp.andi_eq_one.mp e).1, (ogt_iff _ _).mp (IntOp.andi_eq_one.mp e).2⟩
    rw [hz, select_zero]

/-- Row n of the sum over the classes. -/
theorem row_at (x0 : (⟨S1024x512, .f32⟩ : BufTy).Contents (Elt Ideal)) (x1 : (⟨S1024, .i32⟩ : BufTy).Contents (Elt Ideal))
    (x2 : (⟨S100000x512, .f32⟩ : BufTy).Contents (Elt Ideal)) (hr : Margin.InRange x1) (n : Fin 1024) :
    val_main_v36 (F := Ideal) x0 x1 x2 (ix1 n) = Margin.rowRef (Margin.embOf x0) (Margin.wOf x2) (Margin.labOf x1) n := by
  have e : ∀ c : Fin 100000, idx_main_v36 (ix1 n) c = ix2 n c := fun c =>
    funext fun a => Fin.ext (by match a with | ⟨0, _⟩ => rfl | ⟨1, _⟩ => rfl)
  rw [val_main_v36_apply, val_main_cst_9_apply]
  simp only [e, term_at x0 x1 x2 hr, Ideal.ofBits_def, Ideal.ofBits_zero_f32]
  rfl

/-! ## The result -/

/-- The last four operations are the mean over the rows of log(1 + row). -/
theorem tail_eq (x0 : (⟨S1024x512, .f32⟩ : BufTy).Contents (Elt Ideal)) (x1 : (⟨S1024, .i32⟩ : BufTy).Contents (Elt Ideal))
    (x2 : (⟨S100000x512, .f32⟩ : BufTy).Contents (Elt Ideal)) :
    val_main_v39 (F := Ideal) x0 x1 x2 = Margin.tailVec reducesTo_S1024_S_d0 h_S_ (val_main_v36 (F := Ideal) x0 x1 x2) := rfl

end RefRow

theorem ref_value (m : (ℓ : Loc nD τ sig) → Buf (Elt Ideal) ℓ) (c : Dev nD)
    (hr : Margin.InRange (m ((c.tc : Thread nD τ).loc main_arg1))) :
    Cert.ReferenceIdeal.Value.res_main_v39 m c
      = Margin.tailVec reducesTo_S1024_S_d0 h_S_ (Margin.rowVec (Margin.rowRef
          (Margin.embOf (m ((c.tc : Thread nD τ).loc main_arg0))) (Margin.wOf (m ((c.tc : Thread nD τ).loc main_arg2)))
          (Margin.labOf (m ((c.tc : Thread nD τ).loc main_arg1))))) := by
  rw [val_main_v39_eq, RefRow.tail_eq]
  refine congrArg (Margin.tailVec reducesTo_S1024_S_d0 h_S_) (funext fun i => ?_)
  obtain ⟨n, rfl⟩ : ∃ n : Fin 1024, i = ix1 n := ⟨i 0, eq_ix1 i⟩
  exact RefRow.row_at _ _ _ hr n

end Cert.ReferenceIdeal.Hand

end
-- ==== Proof.lean ====
/-
  The certificate of the additive-margin softmax loss kernel against its reference, over the extended reals.

  Both programs normalise the 1024 embedding rows and the 100000 class rows, clip and scale the cosines, and
  sum, per embedding row, the positive margin terms 30·cos(n, c) + 9 − 30·cos(n, label n) over the classes other
  than the row's label; the result is the mean of log(1 + row sum). The kernel keeps the label's own term in the
  sum — it is 30·X + (9 − 30·X) = 9 — and subtracts 9 afterwards; it sums the classes tile by tile into an
  accumulator, one half of the tiles per value of the first grid coordinate; and it guards the class rows' norms
  under the square root, by the square of the guard the reference applies to the norm itself. With every entry
  a real number and every label a class index the two agree row by row (`Margin.rowKer_eq_rowRef`).
-/
import proofs.«430320_j77790447665631_3_alg».proof.Defs
import proofs.«430320_j77790447665631_3_alg».proof.Proof.Gen.Kernel
import proofs.«430320_j77790447665631_3_alg».proof.Proof.Gen.Kernel.Skeleton
import proofs.«430320_j77790447665631_3_alg».proof.Proof.Gen.Kernel.Launch
import proofs.«430320_j77790447665631_3_alg».proof.Proof.Gen.Kernel.Points
import proofs.«430320_j77790447665631_3_alg».proof.Proof.Gen.Kernel.Frame
import proofs.«430320_j77790447665631_3_alg».proof.Proof.Gen.KernelIdeal
import proofs.«430320_j77790447665631_3_alg».proof.Proof.Gen.KernelIdeal.Skeleton
import proofs.«430320_j77790447665631_3_alg».proof.Proof.Gen.KernelIdeal.Launch
import proofs.«430320_j77790447665631_3_alg».proof.Proof.Gen.KernelIdeal.Points
import proofs.«430320_j77790447665631_3_alg».proof.Proof.Gen.KernelIdeal.Frame
import proofs.«430320_j77790447665631_3_alg».proof.Proof.Gen.ReferenceIdeal
import proofs.«430320_j77790447665631_3_alg».proof.Proof.Gen.ReferenceIdeal.Run
import proofs.«430320_j77790447665631_3_alg».proof.Proof.Gen.ReferenceIdeal.Read
import proofs.«430320_j77790447665631_3_alg».proof.Proof.Gen.Pre_finite_inputs
import proofs.«430320_j77790447665631_3_alg».proof.Proof.SpecSum
import proofs.«430320_j77790447665631_3_alg».proof.Proof.PreRead
import proofs.«430320_j77790447665631_3_alg».proof.Proof.KRun
import proofs.«430320_j77790447665631_3_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's guard under the square root denotes the square of the
    norm guard. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- From arguments that agree, hold real numbers and labels that are class indices, both programs end at the mean
    of log(1 + row): the kernel's rows in the second arrangement, the reference's in the first — equal row by row. -/
theorem algebraic : Cert.algebraic_KernelIdeal_ReferenceIdeal := by
  intro m ρ m' ρ' hpre hagree
  have hP := fun c => Cert.Pre_finite_inputs.Hand.pre_read _ _ _ (hpre c)
  refine ⟨_, Cert.KernelIdeal.Hand.run m ρ (fun c => (hP c).2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.ref_value m' c (by rw [(hagree c).2.1]; exact (hP c).2.1),
    (hagree c).1, (hagree c).2.1, (hagree c).2.2]
  refine congrArg _ (funext fun i => ?_)
  exact (Margin.rowKer_eq_rowRef _ _ _ (fun n k => (hP c).1 _) (fun cc k => (hP c).2.2 _) (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
